-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩

class Facts : Prop where
  bcast_S_S4x256x128x256 : S_.BroadcastsInDim S4x256x128x256 (![] : Fin 0 → Fin S4x256x128x256.rank)
  reducesTo_S4x256x128x256_S_d0_1_2_3 : S4x256x128x256.ReducesTo [0, 1, 2, 3] S_
  h_S_ : 0 < S_.numel
  bcast_S_S19x10x256 : S_.BroadcastsInDim S19x10x256 (![] : Fin 0 → Fin S19x10x256.rank)
  reducesTo_S19x10x256_S_d0_1_2 : S19x10x256.ReducesTo [0, 1, 2] S_
  bcast_S_S19 : S_.BroadcastsInDim S19 (![] : Fin 0 → Fin S19.rank)
  reducesTo_S19_S_d0 : S19.ReducesTo [0] S_

variable [Facts]

def fn_part1 {F : FTy → Type} [FloatOps F] (main_v13 : IVec S_ 1) (main_v16 : IVec S19 1) : IVec S_ 1 :=
  let main_c_5 : IVec S_ 1 := constantI S_ 1 1#1
  let main_v17 : IVec S_ 1 := (fun x v => Host.reduce IntOp.andi x v reducesTo_S19_S_d0 h_S_) main_v16 main_c_5
  let main_v18 : IVec S_ 1 := andi main_v13 main_v17
  main_v18

def fn {F : FTy → Type} [FloatOps F] (main_arg0 : FVec F S4x256x128x256 .f32) (main_arg1 : FVec F S19x10x256 .f32) (main_arg2 : FVec F S19 .f32) (main_arg3 : FVec F S19 .f32) : IVec S_ 1 :=
  let main_v0 : FVec F S4x256x128x256 .f32 := Host.absf main_arg0
  let main_cst : FVec F S_ .f32 := constant S_ .f32 0x7F800000#32
  let main_v1 : FVec F S4x256x128x256 .f32 := broadcastInDim S4x256x128x256 ![] bcast_S_S4x256x128x256 main_cst
  let main_v2 : IVec S4x256x128x256 1 := cmpf .olt main_v0 main_v1
  let main_c : IVec S_ 1 := constantI S_ 1 1#1
  let main_v3 : IVec S_ 1 := (fun x v => Host.reduce IntOp.andi x v reducesTo_S4x256x128x256_S_d0_1_2_3 h_S_) main_v2 main_c
  let main_v4 : FVec F S19x10x256 .f32 := Host.absf main_arg1
  let main_cst_0 : FVec F S_ .f32 := constant S_ .f32 0x7F800000#32
  let main_v5 : FVec F S19x10x256 .f32 := broadcastInDim S19x10x256 ![] bcast_S_S19x10x256 main_cst_0
  let main_v6 : IVec S19x10x256 1 := cmpf .olt main_v4 main_v5
  let main_c_1 : IVec S_ 1 := constantI S_ 1 1#1
  let main_v7 : IVec S_ 1 := (fun x v => Host.reduce IntOp.andi x v reducesTo_S19x10x256_S_d0_1_2 h_S_) main_v6 main_c_1
  let main_v8 : IVec S_ 1 := andi main_v3 main_v7
  let main_v9 : FVec F S19 .f32 := Host.absf main_arg2
  let main_cst_2 : FVec F S_ .f32 := constant S_ .f32 0x7F800000#32
  let main_v10 : FVec F S19 .f32 := broadcastInDim S19 ![] bcast_S_S19 main_cst_2
  let main_v11 : IVec S19 1 := cmpf .olt main_v9 main_v10
  let main_c_3 : IVec S_ 1 := constantI S_ 1 1#1
  let main_v12 : IVec S_ 1 := (fun x v => Host.reduce IntOp.andi x v reducesTo_S19_S_d0 h_S_) main_v11 main_c_3
  let main_v13 : IVec S_ 1 := andi main_v8 main_v12
  let main_v14 : FVec F S19 .f32 := Host.absf main_arg3
  let main_cst_4 : FVec F S_ .f32 := constant S_ .f32 0x7F800000#32
  let main_v15 : FVec F S19 .f32 := broadcastInDim S19 ![] bcast_S_S19 main_cst_4
  let main_v16 : IVec S19 1 := cmpf .olt main_v14 main_v15
  fn_part1 (F := F) main_v13 main_v16
-- ==== Kernel.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩
abbrev S19x10 : Shape := ⟨2, ![19, 10]⟩
abbrev S19x10x1 : Shape := ⟨3, ![19, 10, 1]⟩
abbrev S190x256 : Shape := ⟨2, ![190, 256]⟩
abbrev S256x190 : Shape := ⟨2, ![256, 190]⟩
abbrev S1x19 : Shape := ⟨2, ![1, 19]⟩
abbrev S4x19x128x256 : Shape := ⟨4, ![4, 19, 128, 256]⟩
abbrev S1x256x16x256 : Shape := ⟨4, ![1, 256, 16, 256]⟩
abbrev S1x19x16x256 : Shape := ⟨4, ![1, 19, 16, 256]⟩
abbrev S256x16x256 : Shape := ⟨3, ![256, 16, 256]⟩
abbrev S16x256x256 : Shape := ⟨3, ![16, 256, 256]⟩
abbrev S4096x256 : Shape := ⟨2, ![4096, 256]⟩
abbrev S4096x190 : Shape := ⟨2, ![4096, 190]⟩
abbrev S16x256x19x10 : Shape := ⟨4, ![16, 256, 19, 10]⟩
abbrev S16x256x19 : Shape := ⟨3, ![16, 256, 19]⟩
abbrev S16x256 : Shape := ⟨2, ![16, 256]⟩
abbrev S16x256x1 : Shape := ⟨3, ![16, 256, 1]⟩
abbrev S1x1x19 : Shape := ⟨3, ![1, 1, 19]⟩
abbrev S19x16x256 : Shape := ⟨3, ![19, 16, 256]⟩

abbrev nBuf : Space → Nat
  | .hbm => 19
  | .vmem => 7
  | .smem => 0
  | _ => 0

abbrev bufTy : (tb : Table) → Fin (tcTables nBuf tb) → BufTy
  | .hbm, ⟨0, _⟩ => ⟨S4x256x128x256, .f32⟩
  | .hbm, ⟨1, _⟩ => ⟨S19x10x256, .f32⟩
  | .hbm, ⟨2, _⟩ => ⟨S19, .f32⟩
  | .hbm, ⟨3, _⟩ => ⟨S19, .f32⟩
  | .hbm, ⟨4, _⟩ => ⟨S19x10x256, .f32⟩
  | .hbm, ⟨5, _⟩ => ⟨S_, .f32⟩
  | .hbm, ⟨6, _⟩ => ⟨S19x10, .f32⟩
  | .hbm, ⟨7, _⟩ => ⟨S19x10x1, .f32⟩
  | .hbm, ⟨8, _⟩ => ⟨S19x10x1, .f32⟩
  | .hbm, ⟨9, _⟩ => ⟨S_, .f32⟩
  | .hbm, ⟨10, _⟩ => ⟨S19x10x1, .f32⟩
  | .hbm, ⟨11, _⟩ => ⟨S19x10x1, .f32⟩
  | .hbm, ⟨12, _⟩ => ⟨S19x10x256, .f32⟩
  | .hbm, ⟨13, _⟩ => ⟨S19x10x256, .f32⟩
  | .hbm, ⟨14, _⟩ => ⟨S190x256, .f32⟩
  | .hbm, ⟨15, _⟩ => ⟨S256x190, .f32⟩
  | .hbm, ⟨16, _⟩ => ⟨S1x19, .f32⟩
  | .hbm, ⟨17, _⟩ => ⟨S1x19, .f32⟩
  | .hbm, ⟨18, _⟩ => ⟨S4x19x128x256, .f32⟩
  | .local _ .vmem, ⟨0, _⟩ => ⟨S1x256x16x256, .f32⟩
  | .local _ .vmem, ⟨1, _⟩ => ⟨S1x256x16x256, .f32⟩
  | .local _ .vmem, ⟨2, _⟩ => ⟨S256x190, .f32⟩
  | .local _ .vmem, ⟨3, _⟩ => ⟨S1x19, .f32⟩
  | .local _ .vmem, ⟨4, _⟩ => ⟨S1x19, .f32⟩
  | .local _ .vmem, ⟨5, _⟩ => ⟨S1x19x16x256, .f32⟩
  | .local _ .vmem, ⟨6, _⟩ => ⟨S1x19x16x256, .f32⟩
  | _, _ => ⟨S4x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x190 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x19 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x19x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S19x10x256_S19x10_d2 : S19x10x256.ReducesTo [2] S19x10
  h_S_ : 0 < S_.numel
  bcast_S19x10_S19x10x1_0_1 : S19x10.BroadcastsInDim S19x10x1 (![0, 1] : Fin 2 → Fin S19x10x1.rank)
  bcast_S_S19x10x1 : S_.BroadcastsInDim S19x10x1 (![] : Fin 0 → Fin S19x10x1.rank)
  bcast_S19x10x1_S19x10x256_0_1_2 : S19x10x1.BroadcastsInDim S19x10x256 (![0, 1, 2] : Fin 3 → Fin S19x10x256.rank)
  shapeCasts_S19x10x256_S190x256 : S19x10x256.ShapeCasts S190x256
  transposes_S190x256_S256x190_1_0 : S190x256.Transposes [1, 0] S256x190
  shapeCasts_S19_S1x19 : S19.ShapeCasts S1x19
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  transposes_S256x16x256_p1_2_0_S16x256x256 : S256x16x256.Transposes [1, 2, 0] S16x256x256
  shapeCasts_S16x256x256_S4096x256 : S16x256x256.ShapeCasts S4096x256
  inb_S256x190_S256x190_0_0 : ∀ a, (![0, 0] : Fin 2 → Nat) a + S256x190.size a ≤ S256x190.size a
  h_S256x190 : 0 < S256x190.numel
  shapeCasts_S256x190_S256x190 : S256x190.ShapeCasts S256x190
  shapeCasts_S4096x190_S16x256x19x10 : S4096x190.ShapeCasts S16x256x19x10
  reduces_S16x256x19x10_S16x256x19 : S16x256x19x10.Reduces [3] S16x256x19
  reduces_S16x256x19_S16x256 : S16x256x19.Reduces [2] S16x256
  shapeCasts_S16x256_S16x256x1 : S16x256.ShapeCasts S16x256x1
  broadcasts_S16x256x1_S16x256x19 : S16x256x1.Broadcasts S16x256x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  shapeCasts_S1x19_S1x1x19 : S1x19.ShapeCasts S1x1x19
  broadcasts_S1x1x19_S16x256x19 : S1x1x19.Broadcasts S16x256x19
  transposes_S16x256x19_p2_0_1_S19x16x256 : S16x256x19.Transposes [2, 0, 1] S19x16x256
  inb_S1x19x16x256_S1x19x16x256_0_0_0_0 : ∀ a, (![0, 0, 0, 0] : Fin 4 → Nat) a + S1x19x16x256.size a ≤ S1x19x16x256.size a
  h_S1x19x16x256 : 0 < S1x19x16x256.numel
  shapeCasts_S1x19x16x256_S19x16x256 : S1x19x16x256.ShapeCasts S19x16x256
  shapeCasts_S19x16x256_S1x19x16x256 : S19x16x256.ShapeCasts S1x19x16x256
  dot_S4096x256_S256x190_S4096x190_1_0_0_1_n_n_wf : DotDims.WF S4096x256 S256x190 S4096x190 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x256.size a ≤ S4x256x128x256.size a
  hwx0_0 : ∀ i : grid0.Coords, EltTy.bits .f32 = 32 ∨ (Rect.block (s := S4x256x128x256) S1x256x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x190.size a ≤ S256x190.size a
  hwx0_1 : ∀ i : grid0.Coords, EltTy.bits .f32 = 32 ∨ (Rect.block (s := S256x190) S256x190.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x19.size a ≤ S1x19.size a
  hwx0_2 : ∀ i : grid0.Coords, EltTy.bits .f32 = 32 ∨ (Rect.block (s := S1x19) S1x19.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x19.size a ≤ S1x19.size a
  hwx0_3 : ∀ i : grid0.Coords, EltTy.bits .f32 = 32 ∨ (Rect.block (s := S1x19) S1x19.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x16x256.size a ≤ S4x19x128x256.size a
  hwx0_4 : ∀ i : grid0.Coords, EltTy.bits .f32 = 32 ∨ (Rect.block (s := S4x19x128x256) S1x19x16x256.size (cc0_transform_4 i) (hinb0_4 i)).WholeWords (EltTy.packing .f32)

variable [Facts₀]

def dot_S4096x256_S256x190_S4096x190_1_0_0_1_n_n : DotDims S4096x256 S256x190 S4096x190 where
  lhsContracting := [1]
  rhsContracting := [0]
  lhsNonContracting := [0]
  rhsNonContracting := [1]
  lhsBatch := []
  rhsBatch := []
  wf := dot_S4096x256_S256x190_S4096x190_1_0_0_1_n_n_wf

abbrev win0_0 : Pipeline.Window sig grid0 :=
  Pipeline.Window.ofSpec (Memref.whole main_arg0) S1x256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x190.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x19.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x19.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x19x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩
abbrev S19x10 : Shape := ⟨2, ![19, 10]⟩
abbrev S19x10x1 : Shape := ⟨3, ![19, 10, 1]⟩
abbrev S4x128x256x256 : Shape := ⟨4, ![4, 128, 256, 256]⟩
abbrev S131072x256 : Shape := ⟨2, ![131072, 256]⟩
abbrev S131072x19x10 : Shape := ⟨3, ![131072, 19, 10]⟩
abbrev S131072x19 : Shape := ⟨2, ![131072, 19]⟩
abbrev S131072 : Shape := ⟨1, ![131072]⟩
abbrev S131072x1 : Shape := ⟨2, ![131072, 1]⟩
abbrev S1x19 : Shape := ⟨2, ![1, 19]⟩
abbrev S4x128x256x19 : Shape := ⟨4, ![4, 128, 256, 19]⟩
abbrev S4x19x128x256 : Shape := ⟨4, ![4, 19, 128, 256]⟩

abbrev nBuf : Space → Nat
  | .hbm => 65
  | .vmem => 0
  | .smem => 0
  | _ => 0

abbrev bufTy : (tb : Table) → Fin (tcTables nBuf tb) → BufTy
  | .hbm, ⟨0, _⟩ => ⟨S4x256x128x256, .f32⟩
  | .hbm, ⟨1, _⟩ => ⟨S19x10x256, .f32⟩
  | .hbm, ⟨2, _⟩ => ⟨S19, .f32⟩
  | .hbm, ⟨3, _⟩ => ⟨S19, .f32⟩
  | .hbm, ⟨4, _⟩ => ⟨S19x10x256, .f32⟩
  | .hbm, ⟨5, _⟩ => ⟨S_, .f32⟩
  | .hbm, ⟨6, _⟩ => ⟨S19x10, .f32⟩
  | .hbm, ⟨7, _⟩ => ⟨S19x10x1, .f32⟩
  | .hbm, ⟨8, _⟩ => ⟨S19x10x1, .f32⟩
  | .hbm, ⟨9, _⟩ => ⟨S_, .f32⟩
  | .hbm, ⟨10, _⟩ => ⟨S19x10x1, .f32⟩
  | .hbm, ⟨11, _⟩ => ⟨S19x10x1, .f32⟩
  | .hbm, ⟨12, _⟩ => ⟨S19x10x256, .f32⟩
  | .hbm, ⟨13, _⟩ => ⟨S19x10x256, .f32⟩
  | .hbm, ⟨14, _⟩ => ⟨S4x128x256x256, .f32⟩
  | .hbm, ⟨15, _⟩ => ⟨S131072x256, .f32⟩
  | .hbm, ⟨16, _⟩ => ⟨S131072x19x10, .f32⟩
  | .hbm, ⟨17, _⟩ => ⟨S_, .f32⟩
  | .hbm, ⟨18, _⟩ => ⟨S131072x19, .f32⟩
  | .hbm, ⟨19, _⟩ => ⟨S_, .f32⟩
  | .hbm, ⟨20, _⟩ => ⟨S131072, .f32⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S_, .i32⟩
  | .hbm, ⟨26, _⟩ => ⟨S_, .f32⟩
  | .hbm, ⟨27, _⟩ => ⟨S131072, .f32⟩
  | .hbm, ⟨28, _⟩ => ⟨S131072x1, .f32⟩
  | .hbm, ⟨29, _⟩ => ⟨S_, .f32⟩
  | .hbm, ⟨30, _⟩ => ⟨S131072x1, .f32⟩
  | .hbm, ⟨31, _⟩ => ⟨S131072x1, .f32⟩
  | .hbm, ⟨32, _⟩ => ⟨S131072x19, .f32⟩
  | .hbm, ⟨33, _⟩ => ⟨S131072x19, .f32⟩
  | .hbm, ⟨34, _⟩ => ⟨S131072x19, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x1, .f32⟩
  | .hbm, ⟨42, _⟩ => ⟨S131072x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S131072x1, .f32⟩
  | .hbm, ⟨48, _⟩ => ⟨S131072x1, .f32⟩
  | .hbm, ⟨49, _⟩ => ⟨S131072x19, .f32⟩
  | .hbm, ⟨50, _⟩ => ⟨S131072x19, .f32⟩
  | .hbm, ⟨51, _⟩ => ⟨S_, .f32⟩
  | .hbm, ⟨52, _⟩ => ⟨S131072x1, .f32⟩
  | .hbm, ⟨53, _⟩ => ⟨S131072x1, .f32⟩
  | .hbm, ⟨54, _⟩ => ⟨S131072x1, .f32⟩
  | .hbm, ⟨55, _⟩ => ⟨S131072x19, .f32⟩
  | .hbm, ⟨56, _⟩ => ⟨S131072x19, .f32⟩
  | .hbm, ⟨57, _⟩ => ⟨S1x19, .f32⟩
  | .hbm, ⟨58, _⟩ => ⟨S131072x19, .f32⟩
  | .hbm, ⟨59, _⟩ => ⟨S131072x19, .f32⟩
  | .hbm, ⟨60, _⟩ => ⟨S1x19, .f32⟩
  | .hbm, ⟨61, _⟩ => ⟨S131072x19, .f32⟩
  | .hbm, ⟨62, _⟩ => ⟨S131072x19, .f32⟩
  | .hbm, ⟨63, _⟩ => ⟨S4x128x256x19, .f32⟩
  | .hbm, ⟨64, _⟩ => ⟨S4x19x128x256, .f32⟩
  | _, _ => ⟨S4x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]

class Facts₀ : Prop where
  reducesTo_S19x10x256_S19x10_d2 : S19x10x256.ReducesTo [2] S19x10
  h_S_ : 0 < S_.numel
  bcast_S19x10_S19x10x1_0_1 : S19x10.BroadcastsInDim S19x10x1 (![0, 1] : Fin 2 → Fin S19x10x1.rank)
  bcast_S_S19x10x1 : S_.BroadcastsInDim S19x10x1 (![] : Fin 0 → Fin S19x10x1.rank)
  bcast_S19x10x1_S19x10x256_0_1_2 : S19x10x1.BroadcastsInDim S19x10x256 (![0, 1, 2] : Fin 3 → Fin S19x10x256.rank)
  transposes_S4x256x128x256_S4x128x256x256_0_2_3_1 : S4x256x128x256.Transposes [0, 2, 3, 1] S4x128x256x256
  shapeCasts_S4x128x256x256_S131072x256 : S4x128x256x256.ShapeCasts S131072x256
  reducesTo_S131072x19x10_S131072x19_d2 : S131072x19x10.ReducesTo [2] S131072x19
  reducesTo_S131072x19_S131072_d1 : S131072x19.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x19_0_1 : S131072x1.BroadcastsInDim S131072x19 (![0, 1] : Fin 2 → Fin S131072x19.rank)
  bcast_S19_S1x19_1 : S19.BroadcastsInDim S1x19 (![1] : Fin 1 → Fin S1x19.rank)
  bcast_S1x19_S131072x19_0_1 : S1x19.BroadcastsInDim S131072x19 (![0, 1] : Fin 2 → Fin S131072x19.rank)
  shapeCasts_S131072x19_S4x128x256x19 : S131072x19.ShapeCasts S4x128x256x19
  transposes_S4x128x256x19_S4x19x128x256_0_3_1_2 : S4x128x256x19.Transposes [0, 3, 1, 2] S4x19x128x256
  dot_S131072x256_S19x10x256_S131072x19x10_1_2_0_01_n_n_wf : DotDims.WF S131072x256 S19x10x256 S131072x19x10 [1] [2] [0] [0, 1] [] []

variable [Facts₀]

def dot_S131072x256_S19x10x256_S131072x19x10_1_2_0_01_n_n : DotDims S131072x256 S19x10x256 S131072x19x10 where
  lhsContracting := [1]
  rhsContracting := [2]
  lhsNonContracting := [0]
  rhsNonContracting := [0, 1]
  lhsBatch := []
  rhsBatch := []
  wf := dot_S131072x256_S19x10x256_S131072x19x10_1_2_0_01_n_n_wf

class Facts : Prop extends Facts₀ where

variable [Facts]
-- ==== Proof.PixelSpec.lean ====
/-
  What both programs compute, pixel by pixel, on the extended reals.

  A pixel is a position (batch b, row h, column w) of the input; its channel vector is
  `xr c = x[b, c, h, w]`, c < 256.  With the normalised prototypes `pr k m` (19 classes, 10 prototypes
  each, 256 channels):
    sim k m  = Σ_c xr c · pr k m c                      the similarity with prototype (k, m)
    seg k    = max_m sim k m   (folded from -∞)          the class score
    mean     = (Σ_k seg k) / 19
    var      = (Σ_k (seg k - mean)²) / 19
    pix k    = (seg k - mean) · rsqrt (var + ε) · w k + b k
  and the result array holds `pix k` at [b, k, h, w].  The three float words (19, ε = 1e-5 rounded to f32,
  -∞) are kept as the words the programs carry: they are the same on both sides and are never evaluated
  here.
-/
import Idealize.ShloMosaic.PureOps.Ideal
import Idealize.ShloMosaic.Lib.ValueIdx

noncomputable section

namespace Cert.PixelSpec

open Idealize.ShloMosaic Idealize.ShloMosaic.ValueIdx

/-- The class count 19 as the f32 word both programs divide by. -/
abbrev c19 : EReal := Ideal.ofBits .f32 0x41980000#32
/-- LayerNorm's ε: the f32 nearest 1e-5. -/
abbrev lnEps : EReal := Ideal.ofBits .f32 0x3727C5AC#32
/-- The word the maxima are folded from: f32's -∞. -/
abbrev negInf : EReal := Ideal.ofBits .f32 0xFF800000#32

/-- Column `10·k + m` of the prototype table flattened to 190 columns is prototype `(k, m)`. -/
def km (k : Fin 19) (m : Fin 10) : Fin 190 := ⟨10 * k.val + m.val, by omega⟩

/-- Similarity of a channel vector with prototype `(k, m)`: the inner product over the 256 channels. -/
def sim (xr : Fin 256 → EReal) (pr : Fin 19 → Fin 10 → Fin 256 → EReal) (k : Fin 19) (m : Fin 10) : EReal :=
  ∑ c : Fin 256, xr c * pr k m c

/-- Class score: the largest similarity over the class's ten prototypes, folded from -∞. -/
def seg (xr : Fin 256 → EReal) (pr : Fin 19 → Fin 10 → Fin 256 → EReal) (k : Fin 19) : EReal :=
  (Finset.univ : Finset (Fin 10)).fold max negInf (fun m => sim xr pr k m)

/-- Mean of the nineteen class scores. -/
def mean (s : Fin 19 → EReal) : EReal := Ideal.div (∑ k : Fin 19, s k) c19

/-- Their (biased) variance. -/
def var (s : Fin 19 → EReal) : EReal := Ideal.div (∑ k : Fin 19, (s k - mean s) * (s k - mean s)) c19

/-- The normalised, scaled and shifted score of class `k`. -/
def pix (s w b : Fin 19 → EReal) (k : Fin 19) : EReal :=
  (s k - mean s) * Ideal.rsqrt (var s + lnEps) * w k + b k

/-- The result at [bi, k, h, wd], from the input `x`, the normalised prototypes `pr`, and the scale and shift. -/
def outAt (x : (⟨4, ![4, 256, 128, 256]⟩ : Shape).Idx → EReal) (pr : (⟨3, ![19, 10, 256]⟩ : Shape).Idx → EReal)
    (w b : (⟨1, ![19]⟩ : Shape).Idx → EReal) (bi : Fin 4) (k : Fin 19) (h : Fin 128) (wd : Fin 256) : EReal :=
  pix (seg (fun c => x (ix4 bi c h wd)) (fun k m c => pr (ix3 k m c))) (fun k => w (ix1 k)) (fun k => b (ix1 k)) k

/-- The whole result array. -/
def out (x : (⟨4, ![4, 256, 128, 256]⟩ : Shape).Idx → EReal) (pr : (⟨3, ![19, 10, 256]⟩ : Shape).Idx → EReal)
    (w b : (⟨1, ![19]⟩ : Shape).Idx → EReal) : (⟨4, ![4, 19, 128, 256]⟩ : Shape).Idx → EReal :=
  fun j => outAt x pr w b (j 0) (j 1) (j 2) (j 3)

theorem out_ix4 (x : (⟨4, ![4, 256, 128, 256]⟩ : Shape).Idx → EReal) (pr : (⟨3, ![19, 10, 256]⟩ : Shape).Idx → EReal)
    (w b : (⟨1, ![19]⟩ : Shape).Idx → EReal) (bi : Fin 4) (k : Fin 19) (h : Fin 128) (wd : Fin 256) :
    out x pr w b (ix4 bi k h wd) = outAt x pr w b bi k h wd := rfl

end Cert.PixelSpec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelPayload.lean ====
/-
  The kernel body's stored value read at one entry [0, k, h, wd] of the output block: the relayout puts
  the block's pixel (h, wd) at row h·256 + wd of a [4096, 256] matrix whose columns are the channels; the
  matrix product with the [256, 190] prototype table gives the similarities, column 10·k + m being
  prototype (k, m); the maximum over m, the mean and variance over the classes and the normalisation are
  the pixel's specification; the final transpose puts class k first.
-/
import proofs.«117506_j47399259078720_1_alg».proof.Proof.Gen.KernelIdeal.Skeleton
import proofs.«117506_j47399259078720_1_alg».proof.Proof.PixelSpec
import proofs.«117506_j47399259078720_1_alg».proof.Proof.LibPlainDot
import Idealize.ShloMosaic.PureOps.Ideal.Laws
import Idealize.ShloMosaic.Lib.Pipeline.Value
import Idealize.ShloMosaic.Lib.ValueIdx
import Idealize.ShloMosaic.Lib.ValueLayout

noncomputable section

namespace Cert.KernelPayload

open Cert.KernelIdeal Cert.KernelIdeal.Gen Idealize.ShloMosaic Idealize.ShloMosaic.ValueIdx

/-! ## The layout operations, each read at one entry

Every lemma is generic in the vector it reads; the row of a [4096, ·] matrix is a number `n` with
`n = h·256 + wd`, the column of the [·, 190] table a number `j` with `j = 10·k + m`. -/

section Layout
variable {α : Type}

/-- The block [1, 256, 16, 256] relaid as a [4096, 256] matrix (unit axis dropped, channels moved last, the
    two pixel axes flattened): row `h·256 + wd`, column `c` is the block at [0, c, h, wd]. -/
theorem relayout_apply (x : S1x256x16x256.Idx → α) (h1 : S1x256x16x256.ShapeCasts S256x16x256)
    (h2 : S256x16x256.Transposes [1, 2, 0] S16x256x256) (h3 : S16x256x256.ShapeCasts S4096x256)
    (n : Fin 4096) (c : Fin 256) (h : Fin 16) (wd : Fin 256) (hn : n.val = h.val * 256 + wd.val) :
    shapeCast S4096x256 (transpose S16x256x256 [1, 2, 0] (shapeCast S256x16x256 x h1) h2) h3 (ix2 n c)
      = x (ix4 (0 : Fin 1) c h wd) := by
  refine (shapeCast_apply _ h3 (ix2 n c) (ix3 h wd c) ?_).trans ?_
  · rw [Shape.rowMajor_val_three, Shape.rowMajor_val_two]
    show (h.val * 256 + wd.val) * 256 + c.val = n.val * 256 + c.val
    rw [hn]
  refine (transpose_apply [1, 2, 0] _ h2 (ix3 h wd c) (ix3 c h wd) fun b => ?_).trans ?_
  · match b with
    | ⟨0, _⟩ => rfl
    | ⟨1, _⟩ => rfl
    | ⟨2, _⟩ => rfl
  exact shapeCast_1abc_abc_apply x h1 c h wd

/-- The [4096, 190] matrix split as [16, 256, 19, 10]: entry [h, wd, k, m] is row `h·256 + wd`, column
    `10·k + m`. -/
theorem split_apply (x : S4096x190.Idx → α) (hc : S4096x190.ShapeCasts S16x256x19x10)
    (n : Fin 4096) (j : Fin 190) (h : Fin 16) (wd : Fin 256) (k : Fin 19) (m : Fin 10)
    (hn : n.val = h.val * 256 + wd.val) (hj : j.val = 10 * k.val + m.val) :
    shapeCast S16x256x19x10 x hc (ix4 h wd k m) = x (ix2 n j) := by
  refine shapeCast_apply x hc _ _ ?_
  rw [Shape.rowMajor_val_two, Shape.rowMajor_val_four]
  show n.val * 190 + j.val = ((h.val * 256 + wd.val) * 19 + k.val) * 10 + m.val
  omega

/-- A per-pixel value [16, 256] given a trailing unit axis: entry [h, wd, u] is the value at [h, wd]. -/
theorem keep_apply (x : S16x256.Idx → α) (hc : S16x256.ShapeCasts S16x256x1) (h : Fin 16) (wd : Fin 256) (u : Fin 1) :
    shapeCast S16x256x1 x hc (ix3 h wd u) = x (ix2 h wd) := by
  refine shapeCast_apply x hc _ _ ?_
  have hu : u.val = 0 := by omega
  rw [Shape.rowMajor_val_two, Shape.rowMajor_val_three]
  show h.val * 256 + wd.val = (h.val * 256 + wd.val) * 1 + u.val
  omega

/-- A per-pixel column [16, 256, 1] spread over the 19 classes: entry [h, wd, k] is the column at [h, wd, 0]. -/
theorem spread_apply (x : S16x256x1.Idx → α) (hb : S16x256x1.Broadcasts S16x256x19) (h : Fin 16) (wd : Fin 256) (k : Fin 19) :
    broadcastTo S16x256x19 x hb (ix3 h wd k) = x (ix3 h wd (0 : Fin 1)) := by
  refine broadcastTo_apply x hb (ix3 h wd k) (ix3 h wd (0 : Fin 1)) fun a => ?_
  match a with
  | ⟨0, _⟩ => rfl
  | ⟨1, _⟩ => rfl
  | ⟨2, _⟩ => rfl

/-- A per-class row [1, 19] given a second leading unit axis: entry [u, v, k] is the row at [0, k]. -/
theorem row_apply (x : S1x19.Idx → α) (hc : S1x19.ShapeCasts S1x1x19) (u v : Fin 1) (k : Fin 19) :
    shapeCast S1x1x19 x hc (ix3 u v k) = x (ix2 (0 : Fin 1) k) := by
  refine shapeCast_apply x hc _ _ ?_
  have hu : u.val = 0 := by omega
  have hv : v.val = 0 := by omega
  rw [Shape.rowMajor_val_two, Shape.rowMajor_val_three]
  show 0 * 19 + k.val = (u.val * 1 + v.val) * 19 + k.val
  omega

/-- A per-class row [1, 1, 19] spread over the pixels: entry [h, wd, k] is the row at [0, 0, k]. -/
theorem rowSpread_apply (x : S1x1x19.Idx → α) (hb : S1x1x19.Broadcasts S16x256x19) (h : Fin 16) (wd : Fin 256) (k : Fin 19) :
    broadcastTo S16x256x19 x hb (ix3 h wd k) = x (ix3 (0 : Fin 1) (0 : Fin 1) k) := by
  refine broadcastTo_apply x hb (ix3 h wd k) (ix3 (0 : Fin 1) (0 : Fin 1) k) fun a => ?_
  match a with
  | ⟨0, _⟩ => rfl
  | ⟨1, _⟩ => rfl
  | ⟨2, _⟩ => rfl

/-- The result [16, 256, 19] with the class axis moved first: entry [k, h, wd] is the operand at [h, wd, k]. -/
theorem classFirst_apply (x : S16x256x19.Idx → α) (ht : S16x256x19.Transposes [2, 0, 1] S19x16x256)
    (k : Fin 19) (h : Fin 16) (wd : Fin 256) :
    transpose S19x16x256 [2, 0, 1] x ht (ix3 k h wd) = x (ix3 h wd k) := by
  refine transpose_apply [2, 0, 1] x ht (ix3 k h wd) (ix3 h wd k) fun b => ?_
  match b with
  | ⟨0, _⟩ => rfl
  | ⟨1, _⟩ => rfl
  | ⟨2, _⟩ => rfl

end Layout

/-! ## The two reductions, each read at one entry -/

section Reduce

/-- The maximum over the ten prototypes of a class: the fold of `max` from -∞ over the last coordinate. -/
theorem classMax_apply (v : FVec Ideal S16x256x19x10 .f32) (hr : S16x256x19x10.Reduces [3] S16x256x19)
    (hφ : FKind.Formats .f32) (hacc : (0xFF800000#32 : BitVec 32) = FKind.maximumf.neutral .f32 hφ)
    (h : Fin 16) (wd : Fin 256) (k : Fin 19) :
    multiReduction .maximumf [3] S16x256x19 v 0xFF800000#32 hr hφ hacc (ix3 h wd k)
      = (Finset.univ : Finset (Fin 10)).fold max Cert.PixelSpec.negInf (fun m => v (ix4 h wd k m)) := by
  have hl : ∀ m : Fin 10, hr.lift (ix3 h wd k) m = ix4 h wd k m := fun m => funext fun a => Fin.ext <|
    match a with
    | ⟨0, _⟩ => rfl
    | ⟨1, _⟩ => rfl
    | ⟨2, _⟩ => rfl
    | ⟨3, _⟩ => rfl
  refine (Ideal.multiReduction_maximumf_single v _ hr hφ hacc (ix3 h wd k)).trans ?_
  exact Finset.fold_congr (s := (Finset.univ : Finset (Fin 10))) fun m _ => congrArg v (hl m)

/-- The sum over the nineteen classes: the sum over the last coordinate. -/
theorem classSum_apply (v : FVec Ideal S16x256x19 .f32) (hr : S16x256x19.Reduces [2] S16x256)
    (hφ : FKind.Formats .f32) (hacc : (0x00000000#32 : BitVec 32) = FKind.add.neutral .f32 hφ)
    (h : Fin 16) (wd : Fin 256) :
    multiReduction .add [2] S16x256 v 0x00000000#32 hr hφ hacc (ix2 h wd) = ∑ k : Fin 19, v (ix3 h wd k) := by
  have hl : ∀ k : Fin 19, hr.lift (ix2 h wd) k = ix3 h wd k := fun k => funext fun a => Fin.ext <|
    match a with
    | ⟨0, _⟩ => rfl
    | ⟨1, _⟩ => rfl
    | ⟨2, _⟩ => rfl
  refine (Ideal.multiReduction_add_single v _ hr hφ hacc (ix2 h wd)).trans ?_
  exact Finset.sum_congr (s₁ := (Finset.univ : Finset (Fin 19))) rfl fun k _ => congrArg v (hl k)

end Reduce

/-- The stored block at [0, k, h, wd], from the four loaded blocks: the specification at the pixel whose
    channel vector is `x0[0, ·, h, wd]`, with prototype (k', m) the column `10·k' + m` of `x1`, and the
    scale and shift the rows `x2[0, ·]`, `x3[0, ·]`. -/
theorem payload_apply (x0 : FVec Ideal S1x256x16x256 .f32) (x1 : FVec Ideal S256x190 .f32) (x2 x3 : FVec Ideal S1x19 .f32)
    (k : Fin 19) (h : Fin 16) (wd : Fin 256) :
    k0_pay1 (F := Ideal) (k0_pay2 (F := Ideal) x0 x1 x2 x3) (ix4 (0 : Fin 1) k h wd)
      = Cert.PixelSpec.pix
          (Cert.PixelSpec.seg (fun c => x0 (ix4 (0 : Fin 1) c h wd)) (fun k' m c => x1 (ix2 c (Cert.PixelSpec.km k' m))))
          (fun k' => x2 (ix2 (0 : Fin 1) k')) (fun k' => x3 (ix2 (0 : Fin 1) k')) k := by
  unfold k0_pay1 k0_pay2
  extract_lets -merge v1 v2 v3 v5 cst v6 v7 v8 v9 v10 cst_7 v11 v12 v13 v14 v15 v16 v17 cst_9 v18 v19 v20 v21 cst_10 v22 v23 v24 v25 v26 v28 v29 v31 v32 v33 v34 v35 v36 v37
  -- the pixel's row of the [4096, ·] matrices
  let n : Fin 4096 := ⟨h.val * 256 + wd.val, by omega⟩
  have hn : n.val = h.val * 256 + wd.val := rfl
  -- the specification's data at this pixel
  let xr : Fin 256 → EReal := fun c => x0 (ix4 (0 : Fin 1) c h wd)
  let pr : Fin 19 → Fin 10 → Fin 256 → EReal := fun k' m c => x1 (ix2 c (Cert.PixelSpec.km k' m))
  let s : Fin 19 → EReal := Cert.PixelSpec.seg xr pr
  show shapeCast S1x19x16x256 v37 shapeCasts_S19x16x256_S1x19x16x256 (ix4 (0 : Fin 1) k h wd)
    = Cert.PixelSpec.pix s (fun k' => x2 (ix2 (0 : Fin 1) k')) (fun k' => x3 (ix2 (0 : Fin 1) k')) k
  -- the similarities
  have e3 : ∀ c : Fin 256, v3 (ix2 n c) = xr c := fun c => relayout_apply x0 _ _ _ n c h wd hn
  have e5 : v5 = x1 := shapeCast_self x1 _
  have e6 : ∀ j : Fin 190, v6 (ix2 n j) = ∑ c : Fin 256, v3 (ix2 n c) * v5 (ix2 c j) := fun j =>
    Cert.Lib.PlainDot.matmul_zero_apply (M := 4096) (K := 256) (N := 190) none v3 v5 n j
  have e7 : ∀ (k' : Fin 19) (m : Fin 10), v7 (ix4 h wd k' m) = Cert.PixelSpec.sim xr pr k' m := fun k' m =>
    (split_apply v6 _ n (Cert.PixelSpec.km k' m) h wd k' m hn rfl).trans <| (e6 _).trans <|
      Finset.sum_congr rfl fun c _ => by rw [e3, e5]
  -- the class scores
  have e8 : ∀ k' : Fin 19, v8 (ix3 h wd k') = s k' := fun k' =>
    (classMax_apply v7 _ _ _ h wd k').trans <| Finset.fold_congr fun m _ => e7 k' m
  clear_value v8
  clear e3 e5 e6 e7
  -- their mean, as the column [h, wd, 0] and spread over the classes
  have e9 : v9 (ix2 h wd) = ∑ k' : Fin 19, s k' :=
    (classSum_apply v8 _ _ _ h wd).trans <| Finset.sum_congr rfl fun k' _ => e8 k'
  clear_value v9
  have e12 : v12 (ix3 h wd (0 : Fin 1)) = Cert.PixelSpec.mean s :=
    (divf_apply v10 v11 _).trans <|
      congrArg (fun t => Ideal.div t Cert.PixelSpec.c19) ((keep_apply v9 _ h wd 0).trans e9)
  clear_value v12
  have e13 : ∀ k' : Fin 19, v13 (ix3 h wd k') = Cert.PixelSpec.mean s := fun k' =>
    (spread_apply v12 _ h wd k').trans e12
  clear_value v13
  have e14 : ∀ k' : Fin 19, v14 (ix3 h wd k') = s k' - Cert.PixelSpec.mean s := fun k' =>
    (subf_apply v8 v13 _).trans <| congrArg₂ (· - ·) (e8 k') (e13 k')
  clear_value v14
  -- the variance
  have e15 : ∀ k' : Fin 19, v15 (ix3 h wd k')
      = (s k' - Cert.PixelSpec.mean s) * (s k' - Cert.PixelSpec.mean s) := fun k' =>
    (mulf_apply v14 v14 _).trans <| congrArg₂ (· * ·) (e14 k') (e14 k')
  clear_value v15
  have e16 : v16 (ix2 h wd) = ∑ k' : Fin 19, (s k' - Cert.PixelSpec.mean s) * (s k' - Cert.PixelSpec.mean s) :=
    (classSum_apply v15 _ _ _ h wd).trans <| Finset.sum_congr rfl fun k' _ => e15 k'
  clear_value v16
  have e19 : v19 (ix3 h wd (0 : Fin 1)) = Cert.PixelSpec.var s :=
    (divf_apply v17 v18 _).trans <|
      congrArg (fun t => Ideal.div t Cert.PixelSpec.c19) ((keep_apply v16 _ h wd 0).trans e16)
  clear_value v19
  -- the normalising factor
  have e23 : v23 (ix3 h wd (0 : Fin 1)) = Cert.PixelSpec.var s + Cert.PixelSpec.lnEps :=
    (addf_apply v19 v22 _).trans <| congrArg (fun t => t + Cert.PixelSpec.lnEps) e19
  clear_value v23
  have e24 : v24 (ix3 h wd (0 : Fin 1)) = Ideal.rsqrt (Cert.PixelSpec.var s + Cert.PixelSpec.lnEps) :=
    congrArg Ideal.rsqrt e23
  clear_value v24
  have e25 : v25 (ix3 h wd k) = Ideal.rsqrt (Cert.PixelSpec.var s + Cert.PixelSpec.lnEps) :=
    (spread_apply v24 _ h wd k).trans e24
  clear_value v25
  have e21 : v21 (ix3 h wd k) = s k - Cert.PixelSpec.mean s :=
    (subf_apply v8 v20 _).trans <| congrArg₂ (· - ·) (e8 k) ((spread_apply v12 _ h wd k).trans e12)
  clear_value v21
  have e26 : v26 (ix3 h wd k)
      = (s k - Cert.PixelSpec.mean s) * Ideal.rsqrt (Cert.PixelSpec.var s + Cert.PixelSpec.lnEps) :=
    (mulf_apply v21 v25 _).trans <| congrArg₂ (· * ·) e21 e25
  clear_value v26
  -- the scale and the shift
  have e33 : v33 (ix3 h wd k) = x2 (ix2 (0 : Fin 1) k) :=
    (rowSpread_apply v29 _ h wd k).trans <| (row_apply v28 _ 0 0 k).trans <|
      congrFun (shapeCast_self x2 _) _
  clear_value v33
  have e35 : v35 (ix3 h wd k) = x3 (ix2 (0 : Fin 1) k) :=
    (rowSpread_apply v32 _ h wd k).trans <| (row_apply v31 _ 0 0 k).trans <|
      congrFun (shapeCast_self x3 _) _
  clear_value v35
  have e34 : v34 (ix3 h wd k)
      = (s k - Cert.PixelSpec.mean s) * Ideal.rsqrt (Cert.PixelSpec.var s + Cert.PixelSpec.lnEps)
          * x2 (ix2 (0 : Fin 1) k) :=
    (mulf_apply v26 v33 _).trans <| congrArg₂ (· * ·) e26 e33
  clear_value v34
  have e36 : v36 (ix3 h wd k)
      = (s k - Cert.PixelSpec.mean s) * Ideal.rsqrt (Cert.PixelSpec.var s + Cert.PixelSpec.lnEps)
          * x2 (ix2 (0 : Fin 1) k) + x3 (ix2 (0 : Fin 1) k) :=
    (addf_apply v34 v35 _).trans <| congrArg₂ (· + ·) e34 e35
  clear_value v36
  -- the stored entry
  refine (shapeCast_abc_1abc_apply v37 _ (0 : Fin 1) k h wd).trans ?_
  refine (classFirst_apply v36 _ k h wd).trans ?_
  exact e36

end Cert.KernelPayload

end
-- ==== Proof.RefTerm.lean ====
/-
  The reference's result as a composition of whole-array stages, each the host operations of one step of
  the source, in the order the program applies them:
    protos  — the prototypes divided by their Euclidean norm over the channel axis plus 1e-12;
    xflat   — the input with the channel axis moved last and the three position axes flattened: row
              (b·128 + h)·256 + w holds the channel vector of pixel (b, h, w);
    simR    — its product with the prototypes over the channels: [pixel, class, prototype];
    segR    — the maximum over a class's prototypes: [pixel, class];
    meanR   — the mean of a pixel's nineteen class scores (a column [pixel, 1]);
    varR    — their variance as jnp.var computes it: the sum of squared deviations from the same mean,
              over 19 - ddof with ddof the integer 0, guarded by `19 - ddof > 0` (NaN otherwise);
    outR    — (seg - mean)·rsqrt(var + ε)·w + b, unflattened and with the class axis moved to second place.
-/
import proofs.«117506_j47399259078720_1_alg».proof.Proof.Gen.ReferenceIdeal

noncomputable section

namespace Cert.RefTerm

open Cert.ReferenceIdeal Cert.ReferenceIdeal.Gen Idealize.ShloMosaic

variable {F : FTy → Type} [FloatOps F]

/-- The prototypes, each divided by (its norm over the 256 channels + 1e-12). -/
def protos (P : FVec F S19x10x256 .f32) : FVec F S19x10x256 .f32 :=
  Host.divf P (broadcastInDim S19x10x256 ![0, 1, 2] bcast_S19x10x1_S19x10x256_0_1_2
    (addf (Host.sqrt (broadcastInDim S19x10x1 ![0, 1] bcast_S19x10_S19x10x1_0_1
            (Host.reduceAdd (mulf P P) (constant S_ .f32 0x00000000#32) reducesTo_S19x10x256_S19x10_d2 h_S_)))
          (broadcastInDim S19x10x1 ![] bcast_S_S19x10x1 (constant S_ .f32 0x2B8CBCCC#32))))

/-- The input as [pixel, channel]. -/
def xflat (x : FVec F S4x256x128x256 .f32) : FVec F S131072x256 .f32 :=
  shapeCast S131072x256 (transpose S4x128x256x256 [0, 2, 3, 1] x transposes_S4x256x128x256_S4x128x256x256_0_2_3_1)
    shapeCasts_S4x128x256x256_S131072x256

/-- Similarities [pixel, class, prototype]. -/
def simR (xf : FVec F S131072x256 .f32) (pr : FVec F S19x10x256 .f32) : FVec F S131072x19x10 .f32 :=
  Host.dotGeneral dot_S131072x256_S19x10x256_S131072x19x10_1_2_0_01_n_n none xf pr

/-- Class scores [pixel, class]. -/
def segR (s : FVec F S131072x19x10 .f32) : FVec F S131072x19 .f32 :=
  Host.reduce FloatOps.maximumf s (constant S_ .f32 0xFF800000#32) reducesTo_S131072x19x10_S131072x19_d2 h_S_

/-- A pixel's mean score, as a column. -/
def meanR (g : FVec F S131072x19 .f32) : FVec F S131072x1 .f32 :=
  Host.divf (broadcastInDim S131072x1 ![0] bcast_S131072_S131072x1_0
      (Host.reduceAdd g (constant S_ .f32 0x00000000#32) reducesTo_S131072x19_S131072_d1 h_S_))
    (broadcastInDim S131072x1 ![] bcast_S_S131072x1 (constant S_ .f32 0x41980000#32))

/-- The divisor of the variance: 19 minus the integer 0 converted to a float. -/
def nMinusDdof : FVec F S_ .f32 :=
  subf (constant S_ .f32 0x41980000#32) (sitofp .f32 (constantI S_ 32 0#32))

/-- A pixel's variance, as a column: jnp.var with ddof = 0. -/
def varR (g : FVec F S131072x19 .f32) : FVec F S131072x1 .f32 :=
  select (broadcastInDim S131072x1 ![] bcast_S_S131072x1 (cmpf .ogt (nMinusDdof (F := F)) (constant S_ .f32 0x00000000#32)))
    (Host.divf (broadcastInDim S131072x1 ![0] bcast_S131072_S131072x1_0
        (Host.reduceAdd (mulf (subf g (broadcastInDim S131072x19 ![0, 1] bcast_S131072x1_S131072x19_0_1 (meanR g)))
                              (subf g (broadcastInDim S131072x19 ![0, 1] bcast_S131072x1_S131072x19_0_1 (meanR g))))
          (constant S_ .f32 0x00000000#32) reducesTo_S131072x19_S131072_d1 h_S_))
      (broadcastInDim S131072x1 ![] bcast_S_S131072x1 (nMinusDdof (F := F))))
    (broadcastInDim S131072x1 ![] bcast_S_S131072x1 (id (constant S_ .f32 0x7FC00000#32)))

/-- The normalised, scaled and shifted scores [pixel, class]. -/
def normR (g : FVec F S131072x19 .f32) (w b : FVec F S19 .f32) : FVec F S131072x19 .f32 :=
  addf (mulf (mulf (subf g (broadcastInDim S131072x19 ![0, 1] bcast_S131072x1_S131072x19_0_1 (meanR g)))
                   (broadcastInDim S131072x19 ![0, 1] bcast_S131072x1_S131072x19_0_1
                     (Host.rsqrt (addf (varR g) (broadcastInDim S131072x1 ![] bcast_S_S131072x1 (constant S_ .f32 0x3727C5AC#32))))))
             (broadcastInDim S131072x19 ![0, 1] bcast_S1x19_S131072x19_0_1 (broadcastInDim S1x19 ![1] bcast_S19_S1x19_1 w)))
       (broadcastInDim S131072x19 ![0, 1] bcast_S1x19_S131072x19_0_1 (broadcastInDim S1x19 ![1] bcast_S19_S1x19_1 b))

/-- The reference's result [batch, class, row, column]. -/
def outR (x : FVec F S4x256x128x256 .f32) (P : FVec F S19x10x256 .f32) (w b : FVec F S19 .f32) : FVec F S4x19x128x256 .f32 :=
  transpose S4x19x128x256 [0, 3, 1, 2]
    (shapeCast S4x128x256x19 (normR (segR (simR (xflat x) (protos P))) w b) shapeCasts_S131072x19_S4x128x256x19)
    transposes_S4x128x256x19_S4x19x128x256_0_3_1_2

end Cert.RefTerm

end
-- ==== Proof.KernelValue.lean ====
/-
  The kernel's result array. The grid has 4 × 8 points; point (i, jj) reads the input's block
  [i, all channels, rows 16·jj … 16·jj+15, all columns], the whole prototype table and the scale and shift
  rows, and writes the block [i, all classes, rows 16·jj … 16·jj+15, all columns] of the result. The blocks
  written tile the result, and what a point writes is, entry by entry, the pixel specification at the
  pixel the entry belongs to: so the array after the run is the specification's whole-array function.
  The prototype table the region finds is the normalised prototypes flattened to [190, 256] and transposed:
  entry (c, 10·k + m) is the normalised prototype (k, m) at channel c; the scale and shift rows are the two
  length-19 arguments with a unit axis in front.
-/
import proofs.«117506_j47399259078720_1_alg».proof.Proof.Gen.KernelIdeal.Value
import proofs.«117506_j47399259078720_1_alg».proof.Proof.KernelPayload
import proofs.«117506_j47399259078720_1_alg».proof.Proof.RefTerm
import proofs.«117506_j47399259078720_1_alg».proof.Proof.PixelSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The arrays the region finds -/

/-- The prototype table as the region finds it: the normalised prototypes, flattened and transposed. -/
theorem V_table (c : Dev nD) :
    (V m c main_v6 : S256x190.Idx → EReal)
      = transpose S256x190 [1, 0]
          (shapeCast S190x256 (Cert.RefTerm.protos (F := Ideal) (m ((c : Thread nD τ).loc main_arg1))) shapeCasts_S19x10x256_S190x256)
          transposes_S190x256_S256x190_1_0 := by
  dsimp only [V]
  simp only [hostOps0, hostOps0_1, List.flatten_cons, List.flatten_nil, List.append_nil, List.cons_append, List.nil_append]
  after_results
  rfl

/-- The scale row as the region finds it: the scale argument with a unit axis in front. -/
theorem V_scale (c : Dev nD) :
    (V m c main_v7 : S1x19.Idx → EReal) = shapeCast S1x19 (m ((c : Thread nD τ).loc main_arg2)) shapeCasts_S19_S1x19 := by
  dsimp only [V]
  simp only [hostOps0, hostOps0_1, List.flatten_cons, List.flatten_nil, List.append_nil, List.cons_append, List.nil_append]
  after_results
  rfl

/-- The shift row likewise. -/
theorem V_shift (c : Dev nD) :
    (V m c main_v8 : S1x19.Idx → EReal) = shapeCast S1x19 (m ((c : Thread nD τ).loc main_arg3)) shapeCasts_S19_S1x19 := by
  dsimp only [V]
  simp only [hostOps0, hostOps0_1, List.flatten_cons, List.flatten_nil, List.append_nil, List.cons_append, List.nil_append]
  after_results
  rfl

/-- Entry (ch, 10·k + mm) of the table is the normalised prototype (k, mm) at channel ch: the transpose swaps the two
    coordinates, and row 10·k + mm of the flattened prototypes is prototype (k, mm). -/
theorem table_apply (pr : S19x10x256.Idx → EReal) (k : Fin 19) (mm : Fin 10) (ch : Fin 256) :
    transpose S256x190 [1, 0] (shapeCast S190x256 pr shapeCasts_S19x10x256_S190x256) transposes_S190x256_S256x190_1_0
        (ix2 ch (Cert.PixelSpec.km k mm))
      = pr (ix3 k mm ch) := by
  refine (transpose_ix2_apply _ _ ch (Cert.PixelSpec.km k mm)).trans ?_
  refine shapeCast_apply _ _ _ _ ?_
  rw [Shape.rowMajor_val_three, Shape.rowMajor_val_two]
  show (k.val * 10 + mm.val) * 256 + ch.val = (10 * k.val + mm.val) * 256 + ch.val
  omega

/-! ## The index maps over the grid -/

/-- The printed index maps, decided over the 32 points: the input's block moves with the result's on the batch and
    row axes; every other block index is 0; the result's block indices stay below 4 and 8. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 4) = 0 ∧ win0_4.index t (3 : Fin 4) = 0
    ∧ win0_4.index t (0 : Fin 4) ≤ 3 ∧ win0_4.index t (2 : Fin 4) ≤ 7 :=
  (by decide +kernel : ∀ t : Fin grid0.N, _)

/-- Every (batch, row-block) pair is some point's. -/
theorem idx_onto : ∀ (q0 : Fin 4) (q2 : Fin 8), ∃ t : Fin cfg0.N, win0_4.index t = ![q0.val, 0, q2.val, 0] :=
  (by decide +kernel : ∀ (q0 : Fin 4) (q2 : Fin 8), ∃ t : Fin grid0.N, win0_4.index t = ![q0.val, 0, q2.val, 0])

/-! ## What a point writes back -/

/-- The result array: the specification over the input as the region finds it, the normalised prototypes, and the
    scale and shift arguments. -/
abbrev G (c : Dev nD) : S4x19x128x256.Idx → EReal :=
  Cert.PixelSpec.out (V m c main_arg0) (Cert.RefTerm.protos (F := Ideal) (m ((c : Thread nD τ).loc main_arg1)))
    (m ((c : Thread nD τ).loc main_arg2)) (m ((c : Thread nD τ).loc main_arg3))

/-- WHAT POINT `t` WRITES BACK is block `t` of `G`: each entry of the stored block is the pixel specification
    (the payload read at an entry), over the input block's channel vector — the array's at the entry's pixel —, the
    table's columns — the normalised prototypes — and the two rows. -/
theorem flushed_eq (c : Dev nD) (t : Fin cfg0.N) :
    (dats m 0 c).flushed 4 t = ((cfg0.win 4).blk t).view.read (Elt Ideal) (G m c) := by
  rw [Cert.KernelIdeal.Value.flushed4]
  unfold out0_4
  rw [View.canon_unit_zero hz4]
  simp only [View.ld_unit_zero (S := S1x256x16x256) hz4, View.ld_unit_zero (S := S256x190) hz2, View.ld_unit_zero (S := S1x19) hz2]
  obtain ⟨e0, e1, e2, e3, f10, f11, f20, f21, f30, f31, g1, g3, b0, b2⟩ := idx_facts t
  refine funext fun (j : S1x19x16x256.Idx) => ?_
  obtain ⟨k, h, wd, rfl⟩ : ∃ (k : Fin 19) (h : Fin 16) (wd : Fin 256), j = ix4 (0 : Fin 1) k h wd :=
    ⟨j 1, j 2, j 3, funext fun a => match a with
      | ⟨0, _⟩ => Fin.ext (by have h0 : (j 0).val < 1 := (j 0).isLt; show (j 0).val = 0; omega)
      | ⟨1, _⟩ => rfl
      | ⟨2, _⟩ => rfl
      | ⟨3, _⟩ => rfl⟩
  have hemb : ((cfg0.win 4).blk t).view.emb (ix4 (0 : Fin 1) k h wd)
      = ix4 (⟨win0_4.index t (0 : Fin 4), by omega⟩ : Fin 4) k (⟨win0_4.index t (2 : Fin 4) * 16 + h.val, by omega⟩ : Fin 128) wd := by
    funext a; apply Fin.ext
    match a with
    | ⟨0, _⟩ => show win0_4.index t (0 : Fin 4) * 1 + 1 * 0 = win0_4.index t (0 : Fin 4); omega
    | ⟨1, _⟩ => show win0_4.index t (1 : Fin 4) * 19 + 1 * k.val = k.val; omega
    | ⟨2, _⟩ => show win0_4.index t (2 : Fin 4) * 16 + 1 * h.val = win0_4.index t (2 : Fin 4) * 16 + h.val; omega
    | ⟨3, _⟩ => show win0_4.index t (3 : Fin 4) * 256 + 1 * wd.val = wd.val; omega
  show k0_pay1 (k0_pay2 (iblk m c 0 t) (iblk m c 1 t) (iblk m c 2 t) (iblk m c 3 t)) (ix4 (0 : Fin 1) k h wd)
    = G m c (((cfg0.win 4).blk t).view.emb (ix4 (0 : Fin 1) k h wd))
  rw [hemb]
  show _ = Cert.PixelSpec.outAt (V m c main_arg0) (Cert.RefTerm.protos (F := Ideal) (m ((c : Thread nD τ).loc main_arg1)))
    (m ((c : Thread nD τ).loc main_arg2)) (m ((c : Thread nD τ).loc main_arg3))
    (⟨win0_4.index t (0 : Fin 4), by omega⟩ : Fin 4) k (⟨win0_4.index t (2 : Fin 4) * 16 + h.val, by omega⟩ : Fin 128) wd
  refine (Cert.KernelPayload.payload_apply (iblk m c 0 t) (iblk m c 1 t) (iblk m c 2 t) (iblk m c 3 t) k h wd).trans ?_
  -- the input block's channel vector at (h, wd) is the array's at the entry's pixel
  have hx : (fun ch : Fin 256 => iblk m c 0 t (ix4 (0 : Fin 1) ch h wd))
      = fun ch : Fin 256 => V m c main_arg0 (ix4 (⟨win0_4.index t (0 : Fin 4), by omega⟩ : Fin 4) ch
          (⟨win0_4.index t (2 : Fin 4) * 16 + h.val, by omega⟩ : Fin 128) wd) := by
    funext ch
    show V m c main_arg0 (((cfg0.win 0).blk t).view.emb (ix4 (0 : Fin 1) ch h wd)) = _
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 256 + 1 * ch.val = ch.val; omega
    | ⟨2, _⟩ => show win0_0.index t (2 : Fin 4) * 16 + 1 * h.val = win0_4.index t (2 : Fin 4) * 16 + h.val; omega
    | ⟨3, _⟩ => show win0_0.index t (3 : Fin 4) * 256 + 1 * wd.val = wd.val; omega
  -- the table block is the whole table, whose columns are the normalised prototypes
  have hp : (fun (k' : Fin 19) (mm : Fin 10) (ch : Fin 256) => iblk m c 1 t (ix2 ch (Cert.PixelSpec.km k' mm)))
      = fun (k' : Fin 19) (mm : Fin 10) (ch : Fin 256) =>
          Cert.RefTerm.protos (F := Ideal) (m ((c : Thread nD τ).loc main_arg1)) (ix3 k' mm ch) := by
    funext k' mm ch
    have hi : ((cfg0.win 1).blk t).view.emb (ix2 ch (Cert.PixelSpec.km k' mm)) = ix2 ch (Cert.PixelSpec.km k' mm) := by
      funext a; apply Fin.ext
      match a with
      | ⟨0, _⟩ => show win0_1.index t (0 : Fin 2) * 256 + 1 * ch.val = ch.val; omega
      | ⟨1, _⟩ => show win0_1.index t (1 : Fin 2) * 190 + 1 * (Cert.PixelSpec.km k' mm).val = (Cert.PixelSpec.km k' mm).val; omega
    show V m c main_v6 (((cfg0.win 1).blk t).view.emb (ix2 ch (Cert.PixelSpec.km k' mm))) = _
    rw [hi, V_table]
    exact table_apply _ k' mm ch
  have hw : (fun k' : Fin 19 => iblk m c 2 t (ix2 (0 : Fin 1) k'))
      = fun k' : Fin 19 => m ((c : Thread nD τ).loc main_arg2) (ix1 k') := by
    funext k'
    have hi : ((cfg0.win 2).blk t).view.emb (ix2 (0 : Fin 1) k') = ix2 (0 : Fin 1) k' := by
      funext a; apply Fin.ext
      match a with
      | ⟨0, _⟩ => show win0_2.index t (0 : Fin 2) * 1 + 1 * 0 = 0; omega
      | ⟨1, _⟩ => show win0_2.index t (1 : Fin 2) * 19 + 1 * k'.val = k'.val; omega
    show V m c main_v7 (((cfg0.win 2).blk t).view.emb (ix2 (0 : Fin 1) k')) = _
    rw [hi, V_scale]
    exact shapeCast_a_1a_apply _ _ 0 k'
  have hb : (fun k' : Fin 19 => iblk m c 3 t (ix2 (0 : Fin 1) k'))
      = fun k' : Fin 19 => m ((c : Thread nD τ).loc main_arg3) (ix1 k') := by
    funext k'
    have hi : ((cfg0.win 3).blk t).view.emb (ix2 (0 : Fin 1) k') = ix2 (0 : Fin 1) k' := by
      funext a; apply Fin.ext
      match a with
      | ⟨0, _⟩ => show win0_3.index t (0 : Fin 2) * 1 + 1 * 0 = 0; omega
      | ⟨1, _⟩ => show win0_3.index t (1 : Fin 2) * 19 + 1 * k'.val = k'.val; omega
    show V m c main_v8 (((cfg0.win 3).blk t).view.emb (ix2 (0 : Fin 1) k')) = _
    rw [hi, V_shift]
    exact shapeCast_a_1a_apply _ _ 0 k'
  rw [hx, hp, hw, hb]
  rfl

/-! ## The blocks tile the result -/

/-- An index of the result is in point `t`'s block iff each coordinate is in the block's range on its axis. -/
theorem mem_blk (t : Fin cfg0.N) (i : S4x19x128x256.Idx) :
    i ∈ ((cfg0.win 4).blk t).view.set ↔ ∀ a : Fin 4, win0_4.index t a * S1x19x16x256.size a ≤ (i a).val
      ∧ (i a).val < win0_4.index t a * S1x19x16x256.size a + S1x19x16x256.size a := by
  show i ∈ ((View.whole main_v9).slice (win0_4.rect t)).set ↔ _
  rw [View.set_slice_whole, Rect.mem_set_unit]
  exact Iff.rfl

/-- Every index of the result is in the block of the point with its batch and its row-block. -/
theorem cover (i : S4x19x128x256.Idx) :
    ∃ t : Fin cfg0.N, (cfg0.win 4).flush t = true ∧ i ∈ ((cfg0.win 4).blk t).view.set := by
  have hi0 : (i 0).val < 4 := (i 0).isLt
  have hi1 : (i 1).val < 19 := (i 1).isLt
  have hi2 : (i 2).val < 128 := (i 2).isLt
  have hi3 : (i 3).val < 256 := (i 3).isLt
  obtain ⟨t, ht⟩ := idx_onto ⟨(i 0).val, by omega⟩ ⟨(i 2).val / 16, by omega⟩
  have q0 : win0_4.index t (0 : Fin 4) = (i 0).val := congrFun ht 0
  have q1 : win0_4.index t (1 : Fin 4) = 0 := congrFun ht 1
  have q2 : win0_4.index t (2 : Fin 4) = (i 2).val / 16 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 19 ≤ (i 1).val ∧ (i 1).val < win0_4.index t (1 : Fin 4) * 19 + 19; omega
  | ⟨2, _⟩ => show win0_4.index t (2 : Fin 4) * 16 ≤ (i 2).val ∧ (i 2).val < win0_4.index t (2 : Fin 4) * 16 + 16; omega
  | ⟨3, _⟩ => show win0_4.index t (3 : Fin 4) * 256 ≤ (i 3).val ∧ (i 3).val < win0_4.index t (3 : Fin 4) * 256 + 256; omega

/-- THE RESULT ARRAY after the run is `G`. -/
theorem final (c : Dev nD) : (dats m 0 c).arrAt 4 cfg0.N = G m c :=
  (dats m 0 c).arrAt_eq_of_cover 4 (G m c) (fun t _ => flushed_eq m c t) cover

/-- The result over the arguments as launched: the region finds the input unchanged. -/
theorem G_eq (c : Dev nD) :
    G m c = Cert.PixelSpec.out (m ((c : Thread nD τ).loc main_arg0))
      (Cert.RefTerm.protos (F := Ideal) (m ((c : Thread nD τ).loc main_arg1)))
      (m ((c : Thread nD τ).loc main_arg2)) (m ((c : Thread nD τ).loc main_arg3)) := by
  unfold G
  rw [V_main_arg0]

/-! ## The run -/

/-- The kernel's run: the result at the specification of the arguments, the arguments unchanged. -/
theorem run : θ_run defs (onTc (τ := τ) (main (F := Ideal))) ⟨m, fun _ => 0, ρ⟩ fun r => ∀ c : Dev nD,
      r.2.mem ((c : Thread nD τ).loc main_v9)
          = Cert.PixelSpec.out (m ((c : Thread nD τ).loc main_arg0))
              (Cert.RefTerm.protos (F := Ideal) (m ((c : Thread nD τ).loc main_arg1)))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (G_eq m c)), (h c).2⟩)
    (Cert.KernelIdeal.Value.run_blocks m ρ)

end Cert.KernelValue

end
-- ==== Proof.RefRun.lean ====
/-
  The reference program's run. Its @main is a straight line once its three callees are unfolded at their
  calls: the norm of the prototypes (five operations into the first call's buffers), @main's own sixteen up
  to the class scores and their mean, the variance (twenty operations into the second call's buffers, the
  last three of them the guarded select, itself a callee), and @main's sixteen from the deviations to the
  final transpose: sixty-one operations. Every weakly fair execution of it terminates with the result
  buffer at the composition of those operations applied to the argument arrays — the stages of
  Proof/RefTerm.lean — and the arguments unchanged.

  The class scores are read seven times by what follows them (the mean twice, the deviations three times, …),
  so the composition is read in two halves: the fifteen operations that end in the class scores, as a function
  of the input and the prototypes; and the forty-six after them, as a function of the class scores and the
  scale and shift. Each half's term is small; their composition is `outR`.
-/
import proofs.«117506_j47399259078720_1_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The first fifteen operations: the prototypes' normalisation, the input's relayout, the similarities and the
    class scores (`main_v8`). -/
abbrev opsA : List (HloOp τ sig (Elt F)) :=
  [ StableHlo.TRef.binary (.of main_arg1 : StableHlo.TRef sig ⟨S19x10x256, .f32⟩) (.of main_arg1 : StableHlo.TRef sig ⟨S19x10x256, .f32⟩) main_call0.v0 mulf,
    StableHlo.TRef.nullary main_call0.cst (constant S_ .f32 0x00000000#32),
    StableHlo.TRef.binary main_call0.v0 main_call0.cst main_call0.v1 (fun x v => Host.reduceAdd x v reducesTo_S19x10x256_S19x10_d2 h_S_),
    StableHlo.TRef.unary main_call0.v1 main_call0.v2 (broadcastInDim S19x10x1 ![0, 1] bcast_S19x10_S19x10x1_0_1),
    StableHlo.TRef.unary main_call0.v2 main_call0.v3 Host.sqrt,
    StableHlo.nullary main_cst (constant S_ .f32 0x2B8CBCCC#32),
    StableHlo.unary main_cst main_v1 (broadcastInDim S19x10x1 ![] bcast_S_S19x10x1 : (⟨S_, .f32⟩ : BufTy).Contents (Elt F) → (⟨S19x10x1, .f32⟩ : BufTy).Contents (Elt F)),
    StableHlo.binary main_v0 main_v1 main_v2 (addf : (⟨S19x10x1, .f32⟩ : BufTy).Contents (Elt F) → (⟨S19x10x1, .f32⟩ : BufTy).Contents (Elt F) → (⟨S19x10x1, .f32⟩ : BufTy).Contents (Elt F)),
    StableHlo.unary main_v2 main_v3 (broadcastInDim S19x10x256 ![0, 1, 2] bcast_S19x10x1_S19x10x256_0_1_2 : (⟨S19x10x1, .f32⟩ : BufTy).Contents (Elt F) → (⟨S19x10x256, .f32⟩ : BufTy).Contents (Elt F)),
    StableHlo.binary main_arg1 main_v3 main_v4 (Host.divf : (⟨S19x10x256, .f32⟩ : BufTy).Contents (Elt F) → (⟨S19x10x256, .f32⟩ : BufTy).Contents (Elt F) → (⟨S19x10x256, .f32⟩ : BufTy).Contents (Elt F)),
    StableHlo.unary main_arg0 main_v5 ((transpose S4x128x256x256 [0, 2, 3, 1] · transposes_S4x256x128x256_S4x128x256x256_0_2_3_1) : (⟨S4x256x128x256, .f32⟩ : BufTy).Contents (Elt F) → (⟨S4x128x256x256, .f32⟩ : BufTy).Contents (Elt F)),
    StableHlo.reshape main_v5 main_v6 rfl shapeCasts_S4x128x256x256_S131072x256,
    StableHlo.binary main_v6 main_v4 main_v7 ((fun l r => Host.dotGeneral dot_S131072x256_S19x10x256_S131072x19x10_1_2_0_01_n_n none l r) : (⟨S131072x256, .f32⟩ : BufTy).Contents (Elt F) → (⟨S19x10x256, .f32⟩ : BufTy).Contents (Elt F) → (⟨S131072x19x10, .f32⟩ : BufTy).Contents (Elt F)),
    StableHlo.nullary main_cst_0 (constant S_ .f32 0xFF800000#32),
    StableHlo.binary main_v7 main_cst_0 main_v8 ((fun x v => Host.reduce FloatOps.maximumf x v reducesTo_S131072x19x10_S131072x19_d2 h_S_) : (⟨S131072x19x10, .f32⟩ : BufTy).Contents (Elt F) → (⟨S_, .f32⟩ : BufTy).Contents (Elt F) → (⟨S131072x19, .f32⟩ : BufTy).Contents (Elt F)) ]

/-- The forty-six after them: the mean, the variance, the normalisation, scale and shift, and the relayout back. -/
abbrev opsB : List (HloOp τ sig (Elt F)) :=
  [ StableHlo.nullary main_cst_1 (constant S_ .f32 0x00000000#32),
    StableHlo.binary main_v8 main_cst_1 main_v9 ((fun x v => Host.reduceAdd x v reducesTo_S131072x19_S131072_d1 h_S_) : (⟨S131072x19, .f32⟩ : BufTy).Contents (Elt F) → (⟨S_, .f32⟩ : BufTy).Contents (Elt F) → (⟨S131072, .f32⟩ : BufTy).Contents (Elt F)),
    StableHlo.unary main_v9 main_v10 (broadcastInDim S131072x1 ![0] bcast_S131072_S131072x1_0 : (⟨S131072, .f32⟩ : BufTy).Contents (Elt F) → (⟨S131072x1, .f32⟩ : BufTy).Contents (Elt F)),
    StableHlo.nullary main_cst_2 (constant S_ .f32 0x41980000#32),
    StableHlo.unary main_cst_2 main_v11 (broadcastInDim S131072x1 ![] bcast_S_S131072x1 : (⟨S_, .f32⟩ : BufTy).Contents (Elt F) → (⟨S131072x1, .f32⟩ : BufTy).Contents (Elt F)),
    StableHlo.binary main_v10 main_v11 main_v12 (Host.divf : (⟨S131072x1, .f32⟩ : BufTy).Contents (Elt F) → (⟨S131072x1, .f32⟩ : BufTy).Contents (Elt F) → (⟨S131072x1, .f32⟩ : BufTy).Contents (Elt F)),
    StableHlo.nullary main_c (constantI S_ 32 0#32),
    StableHlo.TRef.nullary main_call1.cst (constant S_ .f32 0x00000000#32),
    StableHlo.TRef.binary (.of main_v8 : StableHlo.TRef sig ⟨S131072x19, .f32⟩) main_call1.cst main_call1.v0 (fun x v => Host.reduceAdd x v reducesTo_S131072x19_S131072_d1 h_S_),
    StableHlo.TRef.unary main_call1.v0 main_call1.v1 (broadcastInDim S131072x1 ![0] bcast_S131072_S131072x1_0),
    StableHlo.TRef.nullary main_call1.cst_0 (constant S_ .f32 0x41980000#32),
    StableHlo.TRef.unary main_call1.cst_0 main_call1.v2 (broadcastInDim S131072x1 ![] bcast_S_S131072x1),
    StableHlo.TRef.binary main_call1.v1 main_call1.v2 main_call1.v3 Host.divf,
    StableHlo.TRef.unary main_call1.v3 main_call1.v4 (broadcastInDim S131072x19 ![0, 1] bcast_S131072x1_S131072x19_0_1),
    StableHlo.TRef.binary (.of main_v8 : StableHlo.TRef sig ⟨S131072x19, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x41980000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x19_S131072_d1 h_S_),
    StableHlo.TRef.unary main_call1.v9 main_call1.v10 (broadcastInDim S131072x1 ![0] bcast_S131072_S131072x1_0),
    StableHlo.TRef.unary main_call1.v8 main_call1.v11 (broadcastInDim S131072x1 ![] bcast_S_S131072x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S131072x1 ![] bcast_S_S131072x1),
    StableHlo.TRef.ternary main_call1.v13 main_call1.v12 main_call1.call0.v1 main_call1.call0.v2 (fun p a b => select (broadcastInDim S131072x1 ![] bcast_S_S131072x1 p) a b),
    StableHlo.unary main_v12 main_v14 (broadcastInDim S131072x19 ![0, 1] bcast_S131072x1_S131072x19_0_1 : (⟨S131072x1, .f32⟩ : BufTy).Contents (Elt F) → (⟨S131072x19, .f32⟩ : BufTy).Contents (Elt F)),
    StableHlo.binary main_v8 main_v14 main_v15 (subf : (⟨S131072x19, .f32⟩ : BufTy).Contents (Elt F) → (⟨S131072x19, .f32⟩ : BufTy).Contents (Elt F) → (⟨S131072x19, .f32⟩ : BufTy).Contents (Elt F)),
    StableHlo.nullary main_cst_3 (constant S_ .f32 0x3727C5AC#32),
    StableHlo.unary main_cst_3 main_v16 (broadcastInDim S131072x1 ![] bcast_S_S131072x1 : (⟨S_, .f32⟩ : BufTy).Contents (Elt F) → (⟨S131072x1, .f32⟩ : BufTy).Contents (Elt F)),
    StableHlo.binary main_v13 main_v16 main_v17 (addf : (⟨S131072x1, .f32⟩ : BufTy).Contents (Elt F) → (⟨S131072x1, .f32⟩ : BufTy).Contents (Elt F) → (⟨S131072x1, .f32⟩ : BufTy).Contents (Elt F)),
    StableHlo.unary main_v17 main_v18 (Host.rsqrt : (⟨S131072x1, .f32⟩ : BufTy).Contents (Elt F) → (⟨S131072x1, .f32⟩ : BufTy).Contents (Elt F)),
    StableHlo.unary main_v18 main_v19 (broadcastInDim S131072x19 ![0, 1] bcast_S131072x1_S131072x19_0_1 : (⟨S131072x1, .f32⟩ : BufTy).Contents (Elt F) → (⟨S131072x19, .f32⟩ : BufTy).Contents (Elt F)),
    StableHlo.binary main_v15 main_v19 main_v20 (mulf : (⟨S131072x19, .f32⟩ : BufTy).Contents (Elt F) → (⟨S131072x19, .f32⟩ : BufTy).Contents (Elt F) → (⟨S131072x19, .f32⟩ : BufTy).Contents (Elt F)),
    StableHlo.unary main_arg2 main_v21 (broadcastInDim S1x19 ![1] bcast_S19_S1x19_1 : (⟨S19, .f32⟩ : BufTy).Contents (Elt F) → (⟨S1x19, .f32⟩ : BufTy).Contents (Elt F)),
    StableHlo.unary main_v21 main_v22 (broadcastInDim S131072x19 ![0, 1] bcast_S1x19_S131072x19_0_1 : (⟨S1x19, .f32⟩ : BufTy).Contents (Elt F) → (⟨S131072x19, .f32⟩ : BufTy).Contents (Elt F)),
    StableHlo.binary main_v20 main_v22 main_v23 (mulf : (⟨S131072x19, .f32⟩ : BufTy).Contents (Elt F) → (⟨S131072x19, .f32⟩ : BufTy).Contents (Elt F) → (⟨S131072x19, .f32⟩ : BufTy).Contents (Elt F)),
    StableHlo.unary main_arg3 main_v24 (broadcastInDim S1x19 ![1] bcast_S19_S1x19_1 : (⟨S19, .f32⟩ : BufTy).Contents (Elt F) → (⟨S1x19, .f32⟩ : BufTy).Contents (Elt F)),
    StableHlo.unary main_v24 main_v25 (broadcastInDim S131072x19 ![0, 1] bcast_S1x19_S131072x19_0_1 : (⟨S1x19, .f32⟩ : BufTy).Contents (Elt F) → (⟨S131072x19, .f32⟩ : BufTy).Contents (Elt F)),
    StableHlo.binary main_v23 main_v25 main_v26 (addf : (⟨S131072x19, .f32⟩ : BufTy).Contents (Elt F) → (⟨S131072x19, .f32⟩ : BufTy).Contents (Elt F) → (⟨S131072x19, .f32⟩ : BufTy).Contents (Elt F)),
    StableHlo.reshape main_v26 main_v27 rfl shapeCasts_S131072x19_S4x128x256x19,
    StableHlo.unary main_v27 main_v28 ((transpose S4x19x128x256 [0, 3, 1, 2] · transposes_S4x128x256x19_S4x19x128x256_0_3_1_2) : (⟨S4x128x256x19, .f32⟩ : BufTy).Contents (Elt F) → (⟨S4x19x128x256, .f32⟩ : BufTy).Contents (Elt F)) ]

/-- @main's sixty-one operations in order, the calls unfolded over their buffer records. -/
abbrev ops : List (HloOp τ sig (Elt F)) := opsA ++ opsB

-- sixty-one binds re-associated: one level of recursion per statement
set_option maxRecDepth 4096 in
/-- @main is that straight line: the callees' definitions unfolded at their calls, sequencing re-associated. -/
theorem main_eq (c : Dev nD) : main (F := F) c = seq ops := by
  simp only [main, fn_norm.body, fn_var.body, fn_where.body, ops, opsA, opsB, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., reshape_bufs_sub ..,
    binary_bufs_sub .., nullary_bufs_sub .., binary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., reshape_bufs_sub .., unary_bufs_sub ..⟩
theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp opsA_sub op h
    · exact List.forall_iff_forall_mem.mp opsB_sub op h

/-- Every buffer after the run is the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first half -/

/-- The class scores after the first fifteen operations: the maximum over a class's prototypes of the products of the
    relaid input with the normalised prototypes. -/
theorem segA (V : Valuation τ sig (Elt F)) :
    after opsA V (main_v8 : DevRef τ sig)
      = Cert.RefTerm.segR (Cert.RefTerm.simR (Cert.RefTerm.xflat (V (main_arg0 : DevRef τ sig)))
          (Cert.RefTerm.protos (V (main_arg1 : DevRef τ sig)))) := by
  after_results
  rfl

theorem argA0 (V : Valuation τ sig (Elt F)) : after opsA V (main_arg0 : DevRef τ sig) = V (main_arg0 : DevRef τ sig) := by
  after_results
theorem argA1 (V : Valuation τ sig (Elt F)) : after opsA V (main_arg1 : DevRef τ sig) = V (main_arg1 : DevRef τ sig) := by
  after_results
theorem argA2 (V : Valuation τ sig (Elt F)) : after opsA V (main_arg2 : DevRef τ sig) = V (main_arg2 : DevRef τ sig) := by
  after_results
theorem argA3 (V : Valuation τ sig (Elt F)) : after opsA V (main_arg3 : DevRef τ sig) = V (main_arg3 : DevRef τ sig) := by
  after_results

/-! ## The second half -/

/-- The result after the last forty-six operations, from the class scores and the scale and shift they find: the
    normalised scores, unflattened, the class axis moved to second place. -/
theorem outB (W : Valuation τ sig (Elt F)) :
    after opsB W (main_v28 : DevRef τ sig)
      = transpose S4x19x128x256 [0, 3, 1, 2]
          (shapeCast S4x128x256x19
            (Cert.RefTerm.normR (W (main_v8 : DevRef τ sig)) (W (main_arg2 : DevRef τ sig)) (W (main_arg3 : DevRef τ sig)))
            shapeCasts_S131072x19_S4x128x256x19)
          transposes_S4x128x256x19_S4x19x128x256_0_3_1_2 := by
  after_results_simp
  rfl

theorem argB0 (W : Valuation τ sig (Elt F)) : after opsB W (main_arg0 : DevRef τ sig) = W (main_arg0 : DevRef τ sig) := by
  after_results_simp
theorem argB1 (W : Valuation τ sig (Elt F)) : after opsB W (main_arg1 : DevRef τ sig) = W (main_arg1 : DevRef τ sig) := by
  after_results_simp
theorem argB2 (W : Valuation τ sig (Elt F)) : after opsB W (main_arg2 : DevRef τ sig) = W (main_arg2 : DevRef τ sig) := by
  after_results_simp
theorem argB3 (W : Valuation τ sig (Elt F)) : after opsB W (main_arg3 : DevRef τ sig) = W (main_arg3 : DevRef τ sig) := by
  after_results_simp

/-! ## The whole line -/

/-- The fold at the result buffer is the stages' composition applied to the argument arrays. -/
theorem out_eq (V : Valuation τ sig (Elt F)) :
    after ops V (main_v28 : DevRef τ sig)
      = Cert.RefTerm.outR (V (main_arg0 : DevRef τ sig)) (V (main_arg1 : DevRef τ sig)) (V (main_arg2 : DevRef τ sig))
          (V (main_arg3 : DevRef τ sig)) := by
  show after (opsA ++ opsB) V _ = _
  rw [after_append, outB, segA, argA2, argA3]
  rfl

theorem arg0_eq (V : Valuation τ sig (Elt F)) : after ops V (main_arg0 : DevRef τ sig) = V (main_arg0 : DevRef τ sig) := by
  show after (opsA ++ opsB) V _ = _
  rw [after_append, argB0, argA0]
theorem arg1_eq (V : Valuation τ sig (Elt F)) : after ops V (main_arg1 : DevRef τ sig) = V (main_arg1 : DevRef τ sig) := by
  show after (opsA ++ opsB) V _ = _
  rw [after_append, argB1, argA1]
theorem arg2_eq (V : Valuation τ sig (Elt F)) : after ops V (main_arg2 : DevRef τ sig) = V (main_arg2 : DevRef τ sig) := by
  show after (opsA ++ opsB) V _ = _
  rw [after_append, argB2, argA2]
theorem arg3_eq (V : Valuation τ sig (Elt F)) : after ops V (main_arg3 : DevRef τ sig) = V (main_arg3 : DevRef τ sig) := by
  show after (opsA ++ opsB) V _ = _
  rw [after_append, argB3, argA3]

/-- The run, in the claim's shape: the result at `outR` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = Cert.RefTerm.outR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_fold m ρ)

end Cert.RefRun

end
-- ==== Proof.RefRead.lean ====
/-
  The reference's result read at one entry [bi, k, h, wd]: the transposes and the flattening only move
  the entry's pixel (bi, h, wd) to row (bi·128 + h)·256 + wd of the flattened arrays; there the product
  with the prototypes, the maximum, the mean, the variance (whose guard 19 - 0 > 0 holds, so the select
  takes the quotient, and 19 - 0 = 19) and the normalisation are the pixel's specification.
-/
import proofs.«117506_j47399259078720_1_alg».proof.Proof.RefTerm
import proofs.«117506_j47399259078720_1_alg».proof.Proof.PixelSpec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.RefRead

open Cert.ReferenceIdeal Cert.ReferenceIdeal.Gen Idealize.ShloMosaic Idealize.ShloMosaic.ValueIdx

/-- The row of the flattened arrays that holds pixel (bi, h, wd). -/
def row (bi : Fin 4) (h : Fin 128) (wd : Fin 256) : Fin 131072 :=
  ⟨(bi.val * 128 + h.val) * 256 + wd.val, by omega⟩

theorem row_val (bi : Fin 4) (h : Fin 128) (wd : Fin 256) : (row bi h wd).val = (bi.val * 128 + h.val) * 256 + wd.val := rfl

/-- The last transpose and the unflattening: entry [bi, k, h, wd] is row (bi, h, wd), column k. -/
theorem unflatten_apply (y : FVec Ideal S131072x19 .f32) (bi : Fin 4) (k : Fin 19) (h : Fin 128) (wd : Fin 256) :
    transpose S4x19x128x256 [0, 3, 1, 2]
        (shapeCast S4x128x256x19 y shapeCasts_S131072x19_S4x128x256x19)
        transposes_S4x128x256x19_S4x19x128x256_0_3_1_2 (ix4 bi k h wd)
      = y (ix2 (row bi h wd) k) := by
  refine (transpose_apply _ _ _ (ix4 bi k h wd) (ix4 bi h wd k) fun c => ?_).trans ?_
  · match c with
    | ⟨0, _⟩ => rfl
    | ⟨1, _⟩ => rfl
    | ⟨2, _⟩ => rfl
    | ⟨3, _⟩ => rfl
  · refine shapeCast_apply y _ (ix4 bi h wd k) (ix2 (row bi h wd) k) ?_
    rw [Shape.rowMajor_val_four, Shape.rowMajor_val_two]
    rfl

/-- The flattened input: row (bi, h, wd), column c is the input at [bi, c, h, wd]. -/
theorem xflat_apply (x : FVec Ideal S4x256x128x256 .f32) (bi : Fin 4) (h : Fin 128) (wd : Fin 256) (c : Fin 256) :
    Cert.RefTerm.xflat x (ix2 (row bi h wd) c) = x (ix4 bi c h wd) := by
  unfold Cert.RefTerm.xflat
  refine (shapeCast_apply _ _ (ix2 (row bi h wd) c) (ix4 bi h wd c) ?_).trans ?_
  · rw [Shape.rowMajor_val_four, Shape.rowMajor_val_two]
    rfl
  · refine transpose_apply _ x _ (ix4 bi h wd c) (ix4 bi c h wd) fun a => ?_
    match a with
    | ⟨0, _⟩ => rfl
    | ⟨1, _⟩ => rfl
    | ⟨2, _⟩ => rfl
    | ⟨3, _⟩ => rfl

/-- The reference's product: contract the input's channel axis with the prototypes' channel axis. -/
abbrev dotD : DotDims S131072x256 S19x10x256 S131072x19x10 :=
  dot_S131072x256_S19x10x256_S131072x19x10_1_2_0_01_n_n

/-- Its contraction index is its one coordinate, a channel. -/
abbrev cEquiv : dotD.contr.Idx ≃ Fin 256 := contrEquiv1 dotD 256 rfl rfl

theorem dot_lhs_axis0 (j : S131072x19x10.Idx) (q : dotD.contr.Idx) : (dotD.lhsIdx j q 0).val = (j 0).val := by
  unfold DotDims.lhsIdx
  rw [dif_neg (show ¬(0 : Fin S131072x256.rank) ∈ dotD.lhsBatch from List.not_mem_nil),
    dif_pos (show (0 : Fin S131072x256.rank) ∈ dotD.lhsNonContracting from List.mem_singleton.2 rfl)]
  rfl

theorem dot_lhs_axis1 (j : S131072x19x10.Idx) (q : dotD.contr.Idx) :
    (dotD.lhsIdx j q 1).val = (q ⟨0, Nat.one_pos⟩).val :=
  dotD.lhsIdx_val_of_single rfl j q

theorem dot_rhs_axis0 (j : S131072x19x10.Idx) (q : dotD.contr.Idx) : (dotD.rhsIdx j q 0).val = (j 1).val := by
  unfold DotDims.rhsIdx
  rw [dif_neg (show ¬(0 : Fin S19x10x256.rank) ∈ dotD.rhsBatch from List.not_mem_nil),
    dif_pos (show (0 : Fin S19x10x256.rank) ∈ dotD.rhsNonContracting from by decide)]
  rfl

theorem dot_rhs_axis1 (j : S131072x19x10.Idx) (q : dotD.contr.Idx) : (dotD.rhsIdx j q 1).val = (j 2).val := by
  unfold DotDims.rhsIdx
  rw [dif_neg (show ¬(1 : Fin S19x10x256.rank) ∈ dotD.rhsBatch from List.not_mem_nil),
    dif_pos (show (1 : Fin S19x10x256.rank) ∈ dotD.rhsNonContracting from by decide)]
  rfl

theorem dot_rhs_axis2 (j : S131072x19x10.Idx) (q : dotD.contr.Idx) :
    (dotD.rhsIdx j q 2).val = (q ⟨0, Nat.one_pos⟩).val :=
  dotD.rhsIdx_val_of_single rfl j q

theorem dot_lhsIdx_eq (n : Fin 131072) (k : Fin 19) (m : Fin 10) (c : Fin 256) :
    dotD.lhsIdx (ix3 n k m) (cEquiv.symm c) = ix2 n c := by
  have hc := contrEquiv1_symm_val dotD 256 rfl rfl c
  exact funext fun a => Fin.ext (by
    match a with
    | ⟨0, _⟩ => exact dot_lhs_axis0 _ _
    | ⟨1, _⟩ => exact (dot_lhs_axis1 _ _).trans hc)

theorem dot_rhsIdx_eq (n : Fin 131072) (k : Fin 19) (m : Fin 10) (c : Fin 256) :
    dotD.rhsIdx (ix3 n k m) (cEquiv.symm c) = ix3 k m c := by
  have hc := contrEquiv1_symm_val dotD 256 rfl rfl c
  exact funext fun a => Fin.ext (by
    match a with
    | ⟨0, _⟩ => exact dot_rhs_axis0 _ _
    | ⟨1, _⟩ => exact dot_rhs_axis1 _ _
    | ⟨2, _⟩ => exact (dot_rhs_axis2 _ _).trans hc)

/-- The similarities: entry [n, k, m] is the inner product of row n with prototype (k, m). -/
theorem simR_apply (xf : FVec Ideal S131072x256 .f32) (pr : FVec Ideal S19x10x256 .f32)
    (n : Fin 131072) (k : Fin 19) (m : Fin 10) :
    Cert.RefTerm.simR xf pr (ix3 n k m) = ∑ c : Fin 256, xf (ix2 n c) * pr (ix3 k m c) := by
  unfold Cert.RefTerm.simR
  simp only [Host.dotGeneral]
  refine (Ideal.dotGeneral_apply dotD none .single xf pr (ix3 n k m)).trans ?_
  rw [← Equiv.sum_comp cEquiv.symm]
  refine Finset.sum_congr rfl fun c _ => ?_
  rw [dot_lhsIdx_eq, dot_rhsIdx_eq]

/-- The maximum's reduction drops the prototype axis. -/
theorem redMax : S131072x19x10.Reduces [2] S131072x19 := by decide

/-- The class scores: entry [n, k] is the maximum, folded from -∞, of the ten similarities of class k. -/
theorem segR_apply (s : FVec Ideal S131072x19x10 .f32) (n : Fin 131072) (k : Fin 19) :
    Cert.RefTerm.segR s (ix2 n k)
      = (Finset.univ : Finset (Fin 10)).fold max Cert.PixelSpec.negInf (fun m => s (ix3 n k m)) := by
  unfold Cert.RefTerm.segR
  refine (Host.reduce_eq_fold_single _ s _ reducesTo_S131072x19x10_S131072x19_d2 redMax h_S_ (ix2 n k)).trans ?_
  have hl : ∀ m : Fin 10, redMax.lift (ix2 n k) m = ix3 n k m := fun m => funext fun a => Fin.ext (by
    match a with
    | ⟨0, _⟩ => rfl
    | ⟨1, _⟩ => rfl
    | ⟨2, _⟩ => rfl)
  show (Finset.univ : Finset (Fin 10)).fold max Cert.PixelSpec.negInf (fun m => s (redMax.lift (ix2 n k) m)) = _
  exact congrArg (fun f : Fin 10 → EReal => (Finset.univ : Finset (Fin 10)).fold max Cert.PixelSpec.negInf f)
    (funext fun m => congrArg s (hl m))

/-- The sums' reduction drops the class axis. -/
theorem redSum : S131072x19.Reduces [1] S131072 := by decide

/-- A row sum kept as a column: entry [n, u] is the sum of row n over the nineteen classes. -/
theorem rowSum_apply (g : FVec Ideal S131072x19 .f32) (n : Fin 131072) (u : Fin 1) :
    broadcastInDim S131072x1 ![0] bcast_S131072_S131072x1_0
        (Host.reduceAdd g (constant S_ .f32 0x00000000#32) reducesTo_S131072x19_S131072_d1 h_S_) (ix2 n u)
      = ∑ k : Fin 19, g (ix2 n k) := by
  refine (broadcastInDim_apply _ _ _ (ix2 n u) (ix1 n) fun a => ?_).trans ?_
  · match a with
    | ⟨0, _⟩ => rfl
  · refine (hostReduceAdd_apply g _ _ h_S_ (ix1 n)).trans ?_
    refine (Ideal.hostReduceAdd_single reducesTo_S131072x19_S131072_d1 redSum g _ (ix1 n)).trans ?_
    have hl : ∀ k : Fin 19, redSum.lift (ix1 n) k = ix2 n k := fun k => funext fun a => Fin.ext (by
      match a with
      | ⟨0, _⟩ => rfl
      | ⟨1, _⟩ => rfl)
    show Ideal.ofBits .f32 0x00000000#32 + ∑ k : Fin 19, g (redSum.lift (ix1 n) k) = _
    rw [Ideal.ofBits_zero_f32, zero_add]
    exact Finset.sum_congr rfl fun k _ => congrArg g (hl k)

/-- The mean column: entry [n, u] is the mean of row n. -/
theorem meanR_apply (g : FVec Ideal S131072x19 .f32) (n : Fin 131072) (u : Fin 1) :
    Cert.RefTerm.meanR g (ix2 n u) = Cert.PixelSpec.mean (fun k => g (ix2 n k)) := by
  unfold Cert.RefTerm.meanR Cert.PixelSpec.mean
  refine (hostDivf_apply _ _ (ix2 n u)).trans ?_
  rw [rowSum_apply, broadcastInDim_scalar_apply]
  rfl

/-- A column broadcast along the classes reads the column's entry of the row. -/
theorem colBcast_apply (v : FVec Ideal S131072x1 .f32) (n : Fin 131072) (k : Fin 19) :
    broadcastInDim S131072x19 ![0, 1] bcast_S131072x1_S131072x19_0_1 v (ix2 n k) = v (ix2 n (0 : Fin 1)) := by
  refine broadcastInDim_apply _ _ v (ix2 n k) (ix2 n (0 : Fin 1)) fun a => ?_
  match a with
  | ⟨0, _⟩ => rfl
  | ⟨1, _⟩ => rfl

/-- A vector over the classes broadcast along the rows reads the vector's entry of the class. -/
theorem rowBcast_apply (w : FVec Ideal S19 .f32) (n : Fin 131072) (k : Fin 19) :
    broadcastInDim S131072x19 ![0, 1] bcast_S1x19_S131072x19_0_1 (broadcastInDim S1x19 ![1] bcast_S19_S1x19_1 w) (ix2 n k)
      = w (ix1 k) := by
  refine (broadcastInDim_apply _ _ _ (ix2 n k) (ix2 (0 : Fin 1) k) fun a => ?_).trans
    (broadcastInDim_apply _ _ w (ix2 (0 : Fin 1) k) (ix1 k) fun a => ?_)
  · match a with
    | ⟨0, _⟩ => rfl
    | ⟨1, _⟩ => rfl
  · match a with
    | ⟨0, _⟩ => rfl

/-- The word both programs divide by denotes the real 19. -/
theorem c19_eq : Cert.PixelSpec.c19 = ((19 : ℝ) : EReal) := by
  simp [Ideal.ofBits, Ideal.ieee, -EReal.coe_mul]; norm_num

/-- So it is positive. -/
theorem c19_pos : (0 : EReal) < Cert.PixelSpec.c19 := by
  rw [c19_eq]; exact EReal.coe_pos.mpr (by norm_num)

/-- The variance's divisor: 19 minus the integer 0 is 19. -/
theorem nMinusDdof_apply : Cert.RefTerm.nMinusDdof (F := Ideal) ix0 = Cert.PixelSpec.c19 := by
  unfold Cert.RefTerm.nMinusDdof
  show Ideal.ofBits .f32 0x41980000#32 - (((0#32 : BitVec 32).toInt : ℝ) : EReal) = _
  simp

/-- The variance's guard, 19 - 0 > 0, holds. -/
theorem guard_apply :
    cmpf .ogt (Cert.RefTerm.nMinusDdof (F := Ideal)) (constant S_ .f32 0x00000000#32) ix0 = 1#1 := by
  refine (cmpf_apply _ _ _ ix0).trans ?_
  rw [nMinusDdof_apply, constant_apply, Ideal.ofBits_zero_f32, Ideal.cmpf_def]
  unfold Ideal.cmp
  simp [c19_pos]

/-- A score's deviation from its row's mean. -/
theorem dev_apply (g : FVec Ideal S131072x19 .f32) (n : Fin 131072) (k : Fin 19) :
    subf g (broadcastInDim S131072x19 ![0, 1] bcast_S131072x1_S131072x19_0_1 (Cert.RefTerm.meanR g)) (ix2 n k)
      = g (ix2 n k) - Cert.PixelSpec.mean (fun k' => g (ix2 n k')) :=
  (subf_apply _ _ _).trans
    (congrArg (fun t => g (ix2 n k) - t) ((colBcast_apply _ n k).trans (meanR_apply g n 0)))

/-- The variance column: the guard holds, so the select takes the quotient, whose divisor is 19. -/
theorem varR_apply (g : FVec Ideal S131072x19 .f32) (n : Fin 131072) (u : Fin 1) :
    Cert.RefTerm.varR g (ix2 n u) = Cert.PixelSpec.var (fun k => g (ix2 n k)) := by
  unfold Cert.RefTerm.varR Cert.PixelSpec.var
  refine (select_apply _ _ _ (ix2 n u)).trans ?_
  have hc : broadcastInDim S131072x1 ![] bcast_S_S131072x1
      (cmpf .ogt (Cert.RefTerm.nMinusDdof (F := Ideal)) (constant S_ .f32 0x00000000#32)) (ix2 n u) = 1#1 :=
    (broadcastInDim_scalar_apply _ _ _).trans guard_apply
  rw [hc, select_one]
  refine (hostDivf_apply _ _ (ix2 n u)).trans ?_
  refine congrArg₂ Ideal.div ?_ ((broadcastInDim_scalar_apply _ _ _).trans nMinusDdof_apply)
  refine (rowSum_apply _ n u).trans (Finset.sum_congr rfl fun k _ => ?_)
  refine (mulf_apply _ _ _).trans ?_
  rw [dev_apply]

/-- The normalised, scaled and shifted scores: entry [n, k] is the specification's, on row n's scores. -/
theorem normR_apply (g : FVec Ideal S131072x19 .f32) (w b : FVec Ideal S19 .f32) (n : Fin 131072) (k : Fin 19) :
    Cert.RefTerm.normR g w b (ix2 n k)
      = Cert.PixelSpec.pix (fun k' => g (ix2 n k')) (fun k' => w (ix1 k')) (fun k' => b (ix1 k')) k := by
  unfold Cert.RefTerm.normR Cert.PixelSpec.pix
  refine (addf_apply _ _ _).trans ?_
  refine congrArg₂ (fun s t : EReal => s + t) ?_ (rowBcast_apply b n k)
  refine (mulf_apply _ _ _).trans ?_
  refine congrArg₂ (fun s t : EReal => s * t) ?_ (rowBcast_apply w n k)
  refine (mulf_apply _ _ _).trans ?_
  refine congrArg₂ (fun s t : EReal => s * t) (dev_apply g n k) ?_
  refine (colBcast_apply _ n k).trans ?_
  show Ideal.rsqrt (Cert.RefTerm.varR g (ix2 n (0 : Fin 1))
      + broadcastInDim S131072x1 ![] bcast_S_S131072x1 (constant (F := Ideal) S_ .f32 0x3727C5AC#32) (ix2 n (0 : Fin 1))) = _
  rw [varR_apply, broadcastInDim_scalar_apply]
  rfl

/-- A pixel's class score in the reference is the specification's. -/
theorem score_apply (x : FVec Ideal S4x256x128x256 .f32) (pr : FVec Ideal S19x10x256 .f32)
    (bi : Fin 4) (h : Fin 128) (wd : Fin 256) (k : Fin 19) :
    Cert.RefTerm.segR (Cert.RefTerm.simR (Cert.RefTerm.xflat x) pr) (ix2 (row bi h wd) k)
      = Cert.PixelSpec.seg (fun c => x (ix4 bi c h wd)) (fun k m c => pr (ix3 k m c)) k := by
  unfold Cert.PixelSpec.seg Cert.PixelSpec.sim
  refine (segR_apply _ _ k).trans ?_
  refine congrArg (fun f : Fin 10 → EReal => (Finset.univ : Finset (Fin 10)).fold max Cert.PixelSpec.negInf f)
    (funext fun m => ?_)
  refine (simR_apply _ pr _ k m).trans (Finset.sum_congr rfl fun c _ => ?_)
  rw [xflat_apply]

/-- The reference's result at [bi, k, h, wd] is the specification's, over the normalised prototypes. -/
theorem outR_apply (x : FVec Ideal S4x256x128x256 .f32) (P : FVec Ideal S19x10x256 .f32) (w b : FVec Ideal S19 .f32)
    (bi : Fin 4) (k : Fin 19) (h : Fin 128) (wd : Fin 256) :
    Cert.RefTerm.outR x P w b (ix4 bi k h wd)
      = Cert.PixelSpec.outAt x (Cert.RefTerm.protos P) w b bi k h wd := by
  unfold Cert.RefTerm.outR Cert.PixelSpec.outAt
  generalize Cert.RefTerm.protos P = pr
  refine (unflatten_apply _ bi k h wd).trans ?_
  refine (normR_apply _ w b _ k).trans ?_
  exact congrArg (fun s : Fin 19 → EReal => Cert.PixelSpec.pix s (fun k' => w (ix1 k')) (fun k' => b (ix1 k')) k)
    (funext fun k' => score_apply x pr bi h wd k')

/-- So the whole result array is the specification's. -/
theorem outR_eq (x : FVec Ideal S4x256x128x256 .f32) (P : FVec Ideal S19x10x256 .f32) (w b : FVec Ideal S19 .f32) :
    Cert.RefTerm.outR x P w b = Cert.PixelSpec.out x (Cert.RefTerm.protos P) w b := by
  funext j
  rw [eq_ix4 j]
  exact outR_apply x P w b _ _ _ _

end Cert.RefRead

end
-- ==== Proof.lean ====
/-
  The certificate of a prototype-similarity head with a LayerNorm over the classes.

  Both programs first divide every prototype by its Euclidean norm over the 256 channels plus 1e-12 (the same host
  operations, word for word). For every pixel (batch b, row h, column w) they then take the inner products of the
  pixel's channel vector with the 190 normalised prototypes, the maximum of each class's ten, and normalise the
  nineteen class scores: subtract their mean, multiply by rsqrt(variance + ε), scale and shift. The kernel does it
  on a 4 × 8 grid, a block of 16 rows per point, with one [4096, 256] × [256, 190] matrix product per block; the
  reference on the whole [131072, 256] matrix of pixels, its variance through jnp.var (a division by 19 - 0 under
  the guard 19 - 0 > 0). Over the extended reals both are, entry by entry, one function of the arguments
  (Proof/PixelSpec.lean): the kernel's blocks tile the result and each entry of a block is the specification at
  its pixel (Proof/KernelPayload.lean, Proof/KernelValue.lean); the reference's stages read at an entry are the same
  (Proof/RefRun.lean, Proof/RefRead.lean). No step needs the inputs finite: only that sums and products may be read in
  the order both programs already use, that 19 - 0 = 19, and that 19 > 0.

  The ideal pass rewrote nothing, so the idealisation is the kernel's own text read over the extended reals and
  `preserves` has no conjunct.
-/
import proofs.«117506_j47399259078720_1_alg».proof.Defs
import proofs.«117506_j47399259078720_1_alg».proof.Proof.Gen.Kernel
import proofs.«117506_j47399259078720_1_alg».proof.Proof.Gen.Kernel.Skeleton
import proofs.«117506_j47399259078720_1_alg».proof.Proof.Gen.Kernel.Launch
import proofs.«117506_j47399259078720_1_alg».proof.Proof.Gen.Kernel.Points
import proofs.«117506_j47399259078720_1_alg».proof.Proof.Gen.Kernel.Frame
import proofs.«117506_j47399259078720_1_alg».proof.Proof.Gen.KernelIdeal
import proofs.«117506_j47399259078720_1_alg».proof.Proof.Gen.KernelIdeal.Skeleton
import proofs.«117506_j47399259078720_1_alg».proof.Proof.Gen.KernelIdeal.Launch
import proofs.«117506_j47399259078720_1_alg».proof.Proof.Gen.KernelIdeal.Points
import proofs.«117506_j47399259078720_1_alg».proof.Proof.Gen.KernelIdeal.Frame
import proofs.«117506_j47399259078720_1_alg».proof.Proof.Gen.KernelIdeal.Value
import proofs.«117506_j47399259078720_1_alg».proof.Proof.Gen.ReferenceIdeal
import proofs.«117506_j47399259078720_1_alg».proof.Proof.Gen.Pre_finite_inputs
import proofs.«117506_j47399259078720_1_alg».proof.Proof.KernelValue
import proofs.«117506_j47399259078720_1_alg».proof.Proof.RefRun
import proofs.«117506_j47399259078720_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.RefRun.run (F := Ideal) m ρ)

/-- From memories that agree on the four arguments both programs end with the specification's array of those
    arguments: the kernel by its blocks, the reference by its stages read entry by entry. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2.1, (hagree c).2.2.2]
  exact Cert.RefRead.outR_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
